-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S120000x602 : Shape := ⟨2, ![120000, 602]⟩
abbrev S250000 : Shape := ⟨1, ![250000]⟩
abbrev S25600 : Shape := ⟨1, ![25600]⟩
abbrev S602x256 : Shape := ⟨2, ![602, 256]⟩
abbrev S256 : Shape := ⟨1, ![256]⟩
abbrev S256x41 : Shape := ⟨2, ![256, 41]⟩
abbrev S41 : Shape := ⟨1, ![41]⟩
abbrev S_ : Shape := ⟨0, ![]⟩

class Facts : Prop where
  bcast_S_S120000x602 : S_.BroadcastsInDim S120000x602 (![] : Fin 0 → Fin S120000x602.rank)
  reducesTo_S120000x602_S_d0_1 : S120000x602.ReducesTo [0, 1] S_
  h_S_ : 0 < S_.numel
  bcast_S_S602x256 : S_.BroadcastsInDim S602x256 (![] : Fin 0 → Fin S602x256.rank)
  reducesTo_S602x256_S_d0_1 : S602x256.ReducesTo [0, 1] S_
  bcast_S_S256 : S_.BroadcastsInDim S256 (![] : Fin 0 → Fin S256.rank)
  reducesTo_S256_S_d0 : S256.ReducesTo [0] S_
  bcast_S_S256x41 : S_.BroadcastsInDim S256x41 (![] : Fin 0 → Fin S256x41.rank)
  reducesTo_S256x41_S_d0_1 : S256x41.ReducesTo [0, 1] S_
  bcast_S_S41 : S_.BroadcastsInDim S41 (![] : Fin 0 → Fin S41.rank)
  reducesTo_S41_S_d0 : S41.ReducesTo [0] S_

variable [Facts]

def fn_part1 {F : FTy → Type} [FloatOps F] (main_arg8 : FVec F S256x41 .f32) (main_arg9 : FVec F S256x41 .f32) (main_arg10 : FVec F S41 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x41 .f32 := Host.absf main_arg8
  let main_cst_6 : FVec F S_ .f32 := constant S_ .f32 0x7F800000#32
  let main_v20 : FVec F S256x41 .f32 := broadcastInDim S256x41 ![] bcast_S_S256x41 main_cst_6
  let main_v21 : IVec S256x41 1 := cmpf .olt main_v19 main_v20
  let main_c_7 : IVec S_ 1 := constantI S_ 1 1#1
  let main_v22 : IVec S_ 1 := (fun x v => Host.reduce IntOp.andi x v reducesTo_S256x41_S_d0_1 h_S_) main_v21 main_c_7
  let main_v23 : IVec S_ 1 := andi main_v18 main_v22
  let main_v24 : FVec F S256x41 .f32 := Host.absf main_arg9
  let main_cst_8 : FVec F S_ .f32 := constant S_ .f32 0x7F800000#32
  let main_v25 : FVec F S256x41 .f32 := broadcastInDim S256x41 ![] bcast_S_S256x41 main_cst_8
  let main_v26 : IVec S256x41 1 := cmpf .olt main_v24 main_v25
  let main_c_9 : IVec S_ 1 := constantI S_ 1 1#1
  let main_v27 : IVec S_ 1 := (fun x v => Host.reduce IntOp.andi x v reducesTo_S256x41_S_d0_1 h_S_) main_v26 main_c_9
  let main_v28 : IVec S_ 1 := andi main_v23 main_v27
  let main_v29 : FVec F S41 .f32 := Host.absf main_arg10
  let main_cst_10 : FVec F S_ .f32 := constant S_ .f32 0x7F800000#32
  let main_v30 : FVec F S41 .f32 := broadcastInDim S41 ![] bcast_S_S41 main_cst_10
  let main_v31 : IVec S41 1 := cmpf .olt main_v29 main_v30
  let main_c_11 : IVec S_ 1 := constantI S_ 1 1#1
  let main_v32 : IVec S_ 1 := (fun x v => Host.reduce IntOp.andi x v reducesTo_S41_S_d0 h_S_) main_v31 main_c_11
  let main_v33 : IVec S_ 1 := andi main_v28 main_v32
  main_v33

def fn {F : FTy → Type} [FloatOps F] (main_arg0 : FVec F S120000x602 .f32) (main_arg1 : IVec S250000 32) (main_arg2 : IVec S250000 32) (main_arg3 : IVec S25600 32) (main_arg4 : IVec S25600 32) (main_arg5 : FVec F S602x256 .f32) (main_arg6 : FVec F S602x256 .f32) (main_arg7 : FVec F S256 .f32) (main_arg8 : FVec F S256x41 .f32) (main_arg9 : FVec F S256x41 .f32) (main_arg10 : FVec F S41 .f32) : IVec S_ 1 :=
  let main_v0 : FVec F S120000x602 .f32 := Host.absf main_arg0
  let main_cst : FVec F S_ .f32 := constant S_ .f32 0x7F800000#32
  let main_v1 : FVec F S120000x602 .f32 := broadcastInDim S120000x602 ![] bcast_S_S120000x602 main_cst
  let main_v2 : IVec S120000x602 1 := cmpf .olt main_v0 main_v1
  let main_c : IVec S_ 1 := constantI S_ 1 1#1
  let main_v3 : IVec S_ 1 := (fun x v => Host.reduce IntOp.andi x v reducesTo_S120000x602_S_d0_1 h_S_) main_v2 main_c
  let main_v4 : FVec F S602x256 .f32 := Host.absf main_arg5
  let main_cst_0 : FVec F S_ .f32 := constant S_ .f32 0x7F800000#32
  let main_v5 : FVec F S602x256 .f32 := broadcastInDim S602x256 ![] bcast_S_S602x256 main_cst_0
  let main_v6 : IVec S602x256 1 := cmpf .olt main_v4 main_v5
  let main_c_1 : IVec S_ 1 := constantI S_ 1 1#1
  let main_v7 : IVec S_ 1 := (fun x v => Host.reduce IntOp.andi x v reducesTo_S602x256_S_d0_1 h_S_) main_v6 main_c_1
  let main_v8 : IVec S_ 1 := andi main_v3 main_v7
  let main_v9 : FVec F S602x256 .f32 := Host.absf main_arg6
  let main_cst_2 : FVec F S_ .f32 := constant S_ .f32 0x7F800000#32
  let main_v10 : FVec F S602x256 .f32 := broadcastInDim S602x256 ![] bcast_S_S602x256 main_cst_2
  let main_v11 : IVec S602x256 1 := cmpf .olt main_v9 main_v10
  let main_c_3 : IVec S_ 1 := constantI S_ 1 1#1
  let main_v12 : IVec S_ 1 := (fun x v => Host.reduce IntOp.andi x v reducesTo_S602x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_v13 main_v16
-- ==== Kernel.lean ====
abbrev S120000x602 : Shape := ⟨2, ![120000, 602]⟩
abbrev S250000 : Shape := ⟨1, ![250000]⟩
abbrev S25600 : Shape := ⟨1, ![25600]⟩
abbrev S602x256 : Shape := ⟨2, ![602, 256]⟩
abbrev S256 : Shape := ⟨1, ![256]⟩
abbrev S256x41 : Shape := ⟨2, ![256, 41]⟩
abbrev S41 : Shape := ⟨1, ![41]⟩
abbrev S_ : Shape := ⟨0, ![]⟩
abbrev S250000x1 : Shape := ⟨2, ![250000, 1]⟩
abbrev S250000x602 : Shape := ⟨2, ![250000, 602]⟩
abbrev S10000x602 : Shape := ⟨2, ![10000, 602]⟩
abbrev S10000 : Shape := ⟨1, ![10000]⟩
abbrev S10000x1 : Shape := ⟨2, ![10000, 1]⟩
abbrev S10000x256 : Shape := ⟨2, ![10000, 256]⟩
abbrev S1000x602 : Shape := ⟨2, ![1000, 602]⟩
abbrev S1000x256 : Shape := ⟨2, ![1000, 256]⟩
abbrev S1x256 : Shape := ⟨2, ![1, 256]⟩
abbrev S25600x1 : Shape := ⟨2, ![25600, 1]⟩
abbrev S25600x256 : Shape := ⟨2, ![25600, 256]⟩
abbrev S1024x256 : Shape := ⟨2, ![1024, 256]⟩
abbrev S1024 : Shape := ⟨1, ![1024]⟩
abbrev S1024x1 : Shape := ⟨2, ![1024, 1]⟩
abbrev S1024x41 : Shape := ⟨2, ![1024, 41]⟩
abbrev S1x41 : Shape := ⟨2, ![1, 41]⟩

abbrev nBuf : Space → Nat
  | .hbm => 65
  | .vmem => 15
  | .smem => 0
  | _ => 0

abbrev bufTy : (tb : Table) → Fin (tcTables nBuf tb) → BufTy
  | .hbm, ⟨0, _⟩ => ⟨S120000x602, .f32⟩
  | .hbm, ⟨1, _⟩ => ⟨S250000, .i32⟩
  | .hbm, ⟨2, _⟩ => ⟨S250000, .i32⟩
  | .hbm, ⟨3, _⟩ => ⟨S25600, .i32⟩
  | .hbm, ⟨4, _⟩ => ⟨S25600, .i32⟩
  | .hbm, ⟨5, _⟩ => ⟨S602x256, .f32⟩
  | .hbm, ⟨6, _⟩ => ⟨S602x256, .f32⟩
  | .hbm, ⟨7, _⟩ => ⟨S256, .f32⟩
  | .hbm, ⟨8, _⟩ => ⟨S256x41, .f32⟩
  | .hbm, ⟨9, _⟩ => ⟨S256x41, .f32⟩
  | .hbm, ⟨10, _⟩ => ⟨S41, .f32⟩
  | .hbm, ⟨11, _⟩ => ⟨S_, .i32⟩
  | .hbm, ⟨12, _⟩ => ⟨S250000, .i32⟩
  | .hbm, ⟨13, _⟩ => ⟨S250000, .i1⟩
  | .hbm, ⟨14, _⟩ => ⟨S_, .i32⟩
  | .hbm, ⟨15, _⟩ => ⟨S250000, .i32⟩
  | .hbm, ⟨16, _⟩ => ⟨S250000, .i32⟩
  | .hbm, ⟨17, _⟩ => ⟨S250000, .i32⟩
  | .hbm, ⟨18, _⟩ => ⟨S250000x1, .i32⟩
  | .hbm, ⟨19, _⟩ => ⟨S250000x602, .f32⟩
  | .hbm, ⟨20, _⟩ => ⟨S_, .f32⟩
  | .hbm, ⟨21, _⟩ => ⟨S10000x602, .f32⟩
  | .hbm, ⟨22, _⟩ => ⟨S250000x1, .i32⟩
  | .hbm, ⟨23, _⟩ => ⟨S10000x602, .f32⟩
  | .hbm, ⟨24, _⟩ => ⟨S_, .f32⟩
  | .hbm, ⟨25, _⟩ => ⟨S250000, .f32⟩
  | .hbm, ⟨26, _⟩ => ⟨S_, .f32⟩
  | .hbm, ⟨27, _⟩ => ⟨S10000, .f32⟩
  | .hbm, ⟨28, _⟩ => ⟨S250000x1, .i32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000x1, .f32⟩
  | .hbm, ⟨34, _⟩ => ⟨S10000x602, .f32⟩
  | .hbm, ⟨35, _⟩ => ⟨S10000x602, .f32⟩
  | .hbm, ⟨36, _⟩ => ⟨S10000x602, .f32⟩
  | .hbm, ⟨37, _⟩ => ⟨S10000x256, .f32⟩
  | .hbm, ⟨38, _⟩ => ⟨S_, .i32⟩
  | .hbm, ⟨39, _⟩ => ⟨S25600, .i32⟩
  | .hbm, ⟨40, _⟩ => ⟨S25600, .i1⟩
  | .hbm, ⟨41, _⟩ => ⟨S_, .i32⟩
  | .hbm, ⟨42, _⟩ => ⟨S25600, .i32⟩
  | .hbm, ⟨43, _⟩ => ⟨S25600, .i32⟩
  | .hbm, ⟨44, _⟩ => ⟨S25600, .i32⟩
  | .hbm, ⟨45, _⟩ => ⟨S25600x1, .i32⟩
  | .hbm, ⟨46, _⟩ => ⟨S25600x256, .f32⟩
  | .hbm, ⟨47, _⟩ => ⟨S_, .f32⟩
  | .hbm, ⟨48, _⟩ => ⟨S1024x256, .f32⟩
  | .hbm, ⟨49, _⟩ => ⟨S25600x1, .i32⟩
  | .hbm, ⟨50, _⟩ => ⟨S1024x256, .f32⟩
  | .hbm, ⟨51, _⟩ => ⟨S_, .f32⟩
  | .hbm, ⟨52, _⟩ => ⟨S25600, .f32⟩
  | .hbm, ⟨53, _⟩ => ⟨S_, .f32⟩
  | .hbm, ⟨54, _⟩ => ⟨S1024, .f32⟩
  | .hbm, ⟨55, _⟩ => ⟨S25600x1, .i32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1024x1, .f32⟩
  | .hbm, ⟨61, _⟩ => ⟨S1024x256, .f32⟩
  | .hbm, ⟨62, _⟩ => ⟨S1024x256, .f32⟩
  | .hbm, ⟨63, _⟩ => ⟨S1024x256, .f32⟩
  | .hbm, ⟨64, _⟩ => ⟨S1024x41, .f32⟩
  | .local _ .vmem, ⟨0, _⟩ => ⟨S1000x602, .f32⟩
  | .local _ .vmem, ⟨1, _⟩ => ⟨S1000x602, .f32⟩
  | .local _ .vmem, ⟨2, _⟩ => ⟨S1000x602, .f32⟩
  | .local _ .vmem, ⟨3, _⟩ => ⟨S1000x602, .f32⟩
  | .local _ .vmem, ⟨4, _⟩ => ⟨S602x256, .f32⟩
  | .local _ .vmem, ⟨5, _⟩ => ⟨S602x256, .f32⟩
  | .local _ .vmem, ⟨6, _⟩ => ⟨S256, .f32⟩
  | .local _ .vmem, ⟨7, _⟩ => ⟨S1000x256, .f32⟩
  | .local _ .vmem, ⟨8, _⟩ => ⟨S1000x256, .f32⟩
  | .local _ .vmem, ⟨9, _⟩ => ⟨S1024x256, .f32⟩
  | .local _ .vmem, ⟨10, _⟩ => ⟨S1024x256, .f32⟩
  | .local _ .vmem, ⟨11, _⟩ => ⟨S256x41, .f32⟩
  | .local _ .vmem, ⟨12, _⟩ => ⟨S256x41, .f32⟩
  | .local _ .vmem, ⟨13, _⟩ => ⟨S41, .f32⟩
  | .local _ .vmem, ⟨14, _⟩ => ⟨S1024x41, .f32⟩
  | _, _ => ⟨S120000x602, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x602 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x602 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S602x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S602x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x41 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x41 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S41 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x41 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  bcast_S_S250000 : S_.BroadcastsInDim S250000 (![] : Fin 0 → Fin S250000.rank)
  bcast_S250000_S250000x1_0 : S250000.BroadcastsInDim S250000x1 (![0] : Fin 1 → Fin S250000x1.rank)
  bcast_S_S10000x602 : S_.BroadcastsInDim S10000x602 (![] : Fin 0 → Fin S10000x602.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x602_0_1 : S10000x1.BroadcastsInDim S10000x602 (![0, 1] : Fin 2 → Fin S10000x602.rank)
  slices_S120000x602_S10000x602_0_0 : S120000x602.Slices ![0, 0] S10000x602
  inb_S1000x602_S1000x602_0_0 : ∀ a, (![0, 0] : Fin 2 → Nat) a + S1000x602.size a ≤ S1000x602.size a
  h_S1000x602 : 0 < S1000x602.numel
  shapeCasts_S1000x602_S1000x602 : S1000x602.ShapeCasts S1000x602
  bitsLt_bf16_f32 : FTy.bits .bf16 < FTy.bits .f32
  inb_S602x256_S602x256_0_0 : ∀ a, (![0, 0] : Fin 2 → Nat) a + S602x256.size a ≤ S602x256.size a
  h_S602x256 : 0 < S602x256.numel
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S_S25600 : S_.BroadcastsInDim S25600 (![] : Fin 0 → Fin S25600.rank)
  bcast_S25600_S25600x1_0 : S25600.BroadcastsInDim S25600x1 (![0] : Fin 1 → Fin S25600x1.rank)
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  slices_S10000x256_S1024x256_0_0 : S10000x256.Slices ![0, 0] S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x41_S256x41_0_0 : ∀ a, (![0, 0] : Fin 2 → Nat) a + S256x41.size a ≤ S256x41.size a
  h_S256x41 : 0 < S256x41.numel
  inb_S41_S41_0 : ∀ a, (![0] : Fin 1 → Nat) a + S41.size a ≤ S41.size a
  h_S41 : 0 < S41.numel
  shapeCasts_S41_S1x41 : S41.ShapeCasts S1x41
  broadcasts_S1x41_S1024x41 : S1x41.Broadcasts S1024x41
  reduces_S1024x41_S1024 : S1024x41.Reduces [1] S1024
  shapeCasts_S1024_S1024x1 : S1024.ShapeCasts S1024x1
  broadcasts_S1024x1_S1024x41 : S1024x1.Broadcasts S1024x41
  inb_S1024x41_S1024x41_0_0 : ∀ a, (![0, 0] : Fin 2 → Nat) a + S1024x41.size a ≤ S1024x41.size a
  h_S1024x41 : 0 < S1024x41.numel
  gather_S120000x602_S250000x1_S250000x602_1_0_n_n_0_1_1602_wf : GatherDims.WF S120000x602 S250000x1 S250000x602 [1] [0] [] [0] [] 1 ![1, 602]
  scatter_S10000x602_S250000x1_S250000x602_1_0_0_1_wf : ScatterDims.WF S10000x602 S250000x1 S250000x602 [1] [0] [0] 1
  scatter_S10000_S250000x1_S250000_n_0_0_1_wf : ScatterDims.WF S10000 S250000x1 S250000 [] [0] [0] 1
  dot_S1000x602_S602x256_S1000x256_1_0_0_1_n_n_wf : DotDims.WF S1000x602 S602x256 S1000x256 [1] [0] [0] [1] [] []
  gather_S10000x256_S25600x1_S25600x256_1_0_n_n_0_1_1256_wf : GatherDims.WF S10000x256 S25600x1 S25600x256 [1] [0] [] [0] [] 1 ![1, 256]
  scatter_S1024x256_S25600x1_S25600x256_1_0_0_1_wf : ScatterDims.WF S1024x256 S25600x1 S25600x256 [1] [0] [0] 1
  scatter_S1024_S25600x1_S25600_n_0_0_1_wf : ScatterDims.WF S1024 S25600x1 S25600 [] [0] [0] 1
  dot_S1024x256_S256x41_S1024x41_1_0_0_1_n_n_wf : DotDims.WF S1024x256 S256x41 S1024x41 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x602.size a ≤ S10000x602.size a
  hwx0_0 : ∀ i : grid0.Coords, EltTy.bits .f32 = 32 ∨ (Rect.block (s := S10000x602) S1000x602.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x602.size a ≤ S10000x602.size a
  hwx0_1 : ∀ i : grid0.Coords, EltTy.bits .f32 = 32 ∨ (Rect.block (s := S10000x602) S1000x602.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S602x256.size a ≤ S602x256.size a
  hwx0_2 : ∀ i : grid0.Coords, EltTy.bits .f32 = 32 ∨ (Rect.block (s := S602x256) S602x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S602x256.size a ≤ S602x256.size a
  hwx0_3 : ∀ i : grid0.Coords, EltTy.bits .f32 = 32 ∨ (Rect.block (s := S602x256) S602x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S10000x256.size a
  hwx0_5 : ∀ i : grid0.Coords, EltTy.bits .f32 = 32 ∨ (Rect.block (s := S10000x256) S1000x256.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S1024x256.size a
  hwx1_0 : ∀ i : grid1.Coords, EltTy.bits .f32 = 32 ∨ (Rect.block (s := S1024x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .f32 = 32 ∨ (Rect.block (s := S1024x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x41.size a ≤ S256x41.size a
  hwx1_2 : ∀ i : grid1.Coords, EltTy.bits .f32 = 32 ∨ (Rect.block (s := S256x41) S256x41.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x41.size a ≤ S256x41.size a
  hwx1_3 : ∀ i : grid1.Coords, EltTy.bits .f32 = 32 ∨ (Rect.block (s := S256x41) S256x41.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S41.size a ≤ S41.size a
  hwx1_4 : ∀ i : grid1.Coords, EltTy.bits .f32 = 32 ∨ (Rect.block (s := S41) S41.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x41.size a ≤ S1024x41.size a
  hwx1_5 : ∀ i : grid1.Coords, EltTy.bits .f32 = 32 ∨ (Rect.block (s := S1024x41) S1024x41.size (cc1_transform_5 i) (hinb1_5 i)).WholeWords (EltTy.packing .f32)

variable [Facts₀]

def gather_S120000x602_S250000x1_S250000x602_1_0_n_n_0_1_1602 : GatherDims S120000x602 S250000x1 S250000x602 where
  offsetDims := [1]
  collapsedSliceDims := [0]
  operandBatchingDims := []
  startIndicesBatchingDims := []
  startIndexMap := [0]
  indexVectorDim := 1
  sliceSizes := ![1, 602]
  wf := gather_S120000x602_S250000x1_S250000x602_1_0_n_n_0_1_1602_wf
def scatter_S10000x602_S250000x1_S250000x602_1_0_0_1 : ScatterDims S10000x602 S250000x1 S250000x602 where
  updateWindowDims := [1]
  insertedWindowDims := [0]
  scatterDimsToOperandDims := [0]
  indexVectorDim := 1
  wf := scatter_S10000x602_S250000x1_S250000x602_1_0_0_1_wf
def scatter_S10000_S250000x1_S250000_n_0_0_1 : ScatterDims S10000 S250000x1 S250000 where
  updateWindowDims := []
  insertedWindowDims := [0]
  scatterDimsToOperandDims := [0]
  indexVectorDim := 1
  wf := scatter_S10000_S250000x1_S250000_n_0_0_1_wf
def dot_S1000x602_S602x256_S1000x256_1_0_0_1_n_n : DotDims S1000x602 S602x256 S1000x256 where
  lhsContracting := [1]
  rhsContracting := [0]
  lhsNonContracting := [0]
  rhsNonContracting := [1]
  lhsBatch := []
  rhsBatch := []
  wf := dot_S1000x602_S602x256_S1000x256_1_0_0_1_n_n_wf
def gather_S10000x256_S25600x1_S25600x256_1_0_n_n_0_1_1256 : GatherDims S10000x256 S25600x1 S25600x256 where
  offsetDims := [1]
  collapsedSliceDims := [0]
  operandBatchingDims := []
  startIndicesBatchingDims := []
  startIndexMap := [0]
  indexVectorDim := 1
  sliceSizes := ![1, 256]
  wf := gather_S10000x256_S25600x1_S25600x256_1_0_n_n_0_1_1256_wf
def scatter_S1024x256_S25600x1_S25600x256_1_0_0_1 : ScatterDims S1024x256 S25600x1 S25600x256 where
  updateWindowDims := [1]
  insertedWindowDims := [0]
  scatterDimsToOperandDims := [0]
  indexVectorDim := 1
  wf := scatter_S1024x256_S25600x1_S25600x256_1_0_0_1_wf
def scatter_S1024_S25600x1_S25600_n_0_0_1 : ScatterDims S1024 S25600x1 S25600 where
  updateWindowDims := []
  insertedWindowDims := [0]
  scatterDimsToOperandDims := [0]
  indexVectorDim := 1
  wf := scatter_S1024_S25600x1_S25600_n_0_0_1_wf
def dot_S1024x256_S256x41_S1024x41_1_0_0_1_n_n : DotDims S1024x256 S256x41 S1024x41 where
  lhsContracting := [1]
  rhsContracting := [0]
  lhsNonContracting := [0]
  rhsNonContracting := [1]
  lhsBatch := []
  rhsBatch := []
  wf := dot_S1024x256_S256x41_S1024x41_1_0_0_1_n_n_wf

abbrev win0_0 : Pipeline.Window sig grid0 :=
  Pipeline.Window.ofSpec (Memref.whole main_v18) S1000x602.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1000x602.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S602x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S602x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S1024x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1024x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x41.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x41.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S41.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1024x41.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S120000x602 : Shape := ⟨2, ![120000, 602]⟩
abbrev S250000 : Shape := ⟨1, ![250000]⟩
abbrev S25600 : Shape := ⟨1, ![25600]⟩
abbrev S602x256 : Shape := ⟨2, ![602, 256]⟩
abbrev S256 : Shape := ⟨1, ![256]⟩
abbrev S256x41 : Shape := ⟨2, ![256, 41]⟩
abbrev S41 : Shape := ⟨1, ![41]⟩
abbrev S10000x602 : Shape := ⟨2, ![10000, 602]⟩
abbrev S_ : Shape := ⟨0, ![]⟩
abbrev S250000x1 : Shape := ⟨2, ![250000, 1]⟩
abbrev S250000x602 : Shape := ⟨2, ![250000, 602]⟩
abbrev S10000 : Shape := ⟨1, ![10000]⟩
abbrev S10000x1 : Shape := ⟨2, ![10000, 1]⟩
abbrev S10000x256 : Shape := ⟨2, ![10000, 256]⟩
abbrev S1x256 : Shape := ⟨2, ![1, 256]⟩
abbrev S1024x256 : Shape := ⟨2, ![1024, 256]⟩
abbrev S25600x1 : Shape := ⟨2, ![25600, 1]⟩
abbrev S25600x256 : Shape := ⟨2, ![25600, 256]⟩
abbrev S1024 : Shape := ⟨1, ![1024]⟩
abbrev S1024x1 : Shape := ⟨2, ![1024, 1]⟩
abbrev S1024x41 : Shape := ⟨2, ![1024, 41]⟩
abbrev S1x41 : Shape := ⟨2, ![1, 41]⟩

abbrev nBuf : Space → Nat
  | .hbm => 93
  | .vmem => 0
  | .smem => 0
  | _ => 0

abbrev bufTy : (tb : Table) → Fin (tcTables nBuf tb) → BufTy
  | .hbm, ⟨0, _⟩ => ⟨S120000x602, .f32⟩
  | .hbm, ⟨1, _⟩ => ⟨S250000, .i32⟩
  | .hbm, ⟨2, _⟩ => ⟨S250000, .i32⟩
  | .hbm, ⟨3, _⟩ => ⟨S25600, .i32⟩
  | .hbm, ⟨4, _⟩ => ⟨S25600, .i32⟩
  | .hbm, ⟨5, _⟩ => ⟨S602x256, .f32⟩
  | .hbm, ⟨6, _⟩ => ⟨S602x256, .f32⟩
  | .hbm, ⟨7, _⟩ => ⟨S256, .f32⟩
  | .hbm, ⟨8, _⟩ => ⟨S256x41, .f32⟩
  | .hbm, ⟨9, _⟩ => ⟨S256x41, .f32⟩
  | .hbm, ⟨10, _⟩ => ⟨S41, .f32⟩
  | .hbm, ⟨11, _⟩ => ⟨S10000x602, .f32⟩
  | .hbm, ⟨12, _⟩ => ⟨S_, .i32⟩
  | .hbm, ⟨13, _⟩ => ⟨S250000, .i32⟩
  | .hbm, ⟨14, _⟩ => ⟨S250000, .i1⟩
  | .hbm, ⟨15, _⟩ => ⟨S_, .i32⟩
  | .hbm, ⟨16, _⟩ => ⟨S250000, .i32⟩
  | .hbm, ⟨17, _⟩ => ⟨S250000, .i32⟩
  | .hbm, ⟨18, _⟩ => ⟨S250000, .i32⟩
  | .hbm, ⟨19, _⟩ => ⟨S250000x1, .i32⟩
  | .hbm, ⟨20, _⟩ => ⟨S250000x602, .f32⟩
  | .hbm, ⟨21, _⟩ => ⟨S_, .f32⟩
  | .hbm, ⟨22, _⟩ => ⟨S10000x602, .f32⟩
  | .hbm, ⟨23, _⟩ => ⟨S250000x1, .i32⟩
  | .hbm, ⟨24, _⟩ => ⟨S10000x602, .f32⟩
  | .hbm, ⟨25, _⟩ => ⟨S_, .f32⟩
  | .hbm, ⟨26, _⟩ => ⟨S250000, .f32⟩
  | .hbm, ⟨27, _⟩ => ⟨S_, .f32⟩
  | .hbm, ⟨28, _⟩ => ⟨S10000, .f32⟩
  | .hbm, ⟨29, _⟩ => ⟨S250000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x602, .f32⟩
  | .hbm, ⟨36, _⟩ => ⟨S10000x602, .f32⟩
  | .hbm, ⟨37, _⟩ => ⟨S10000x256, .f32⟩
  | .hbm, ⟨38, _⟩ => ⟨S1x256, .f32⟩
  | .hbm, ⟨39, _⟩ => ⟨S10000x256, .f32⟩
  | .hbm, ⟨40, _⟩ => ⟨S10000x256, .f32⟩
  | .hbm, ⟨41, _⟩ => ⟨S10000x256, .f32⟩
  | .hbm, ⟨42, _⟩ => ⟨S10000x256, .f32⟩
  | .hbm, ⟨43, _⟩ => ⟨S_, .f32⟩
  | .hbm, ⟨44, _⟩ => ⟨S10000x256, .f32⟩
  | .hbm, ⟨45, _⟩ => ⟨S10000x256, .f32⟩
  | .hbm, ⟨46, _⟩ => ⟨S1024x256, .f32⟩
  | .hbm, ⟨47, _⟩ => ⟨S_, .i32⟩
  | .hbm, ⟨48, _⟩ => ⟨S25600, .i32⟩
  | .hbm, ⟨49, _⟩ => ⟨S25600, .i1⟩
  | .hbm, ⟨50, _⟩ => ⟨S_, .i32⟩
  | .hbm, ⟨51, _⟩ => ⟨S25600, .i32⟩
  | .hbm, ⟨52, _⟩ => ⟨S25600, .i32⟩
  | .hbm, ⟨53, _⟩ => ⟨S25600, .i32⟩
  | .hbm, ⟨54, _⟩ => ⟨S25600x1, .i32⟩
  | .hbm, ⟨55, _⟩ => ⟨S25600x256, .f32⟩
  | .hbm, ⟨56, _⟩ => ⟨S_, .f32⟩
  | .hbm, ⟨57, _⟩ => ⟨S1024x256, .f32⟩
  | .hbm, ⟨58, _⟩ => ⟨S25600x1, .i32⟩
  | .hbm, ⟨59, _⟩ => ⟨S1024x256, .f32⟩
  | .hbm, ⟨60, _⟩ => ⟨S_, .f32⟩
  | .hbm, ⟨61, _⟩ => ⟨S25600, .f32⟩
  | .hbm, ⟨62, _⟩ => ⟨S_, .f32⟩
  | .hbm, ⟨63, _⟩ => ⟨S1024, .f32⟩
  | .hbm, ⟨64, _⟩ => ⟨S25600x1, .i32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S1024x1, .f32⟩
  | .hbm, ⟨70, _⟩ => ⟨S1024x256, .f32⟩
  | .hbm, ⟨71, _⟩ => ⟨S1024x256, .f32⟩
  | .hbm, ⟨72, _⟩ => ⟨S1024x41, .f32⟩
  | .hbm, ⟨73, _⟩ => ⟨S1x41, .f32⟩
  | .hbm, ⟨74, _⟩ => ⟨S1024x41, .f32⟩
  | .hbm, ⟨75, _⟩ => ⟨S1024x41, .f32⟩
  | .hbm, ⟨76, _⟩ => ⟨S1024x41, .f32⟩
  | .hbm, ⟨77, _⟩ => ⟨S1024x41, .f32⟩
  | .hbm, ⟨78, _⟩ => ⟨S_, .f32⟩
  | .hbm, ⟨79, _⟩ => ⟨S1024, .f32⟩
  | .hbm, ⟨80, _⟩ => ⟨S_, .f32⟩
  | .hbm, ⟨81, _⟩ => ⟨S1024, .f32⟩
  | .hbm, ⟨82, _⟩ => ⟨S1024, .f32⟩
  | .hbm, ⟨83, _⟩ => ⟨S1024x1, .f32⟩
  | .hbm, ⟨84, _⟩ => ⟨S1024x41, .f32⟩
  | .hbm, ⟨85, _⟩ => ⟨S1024x41, .f32⟩
  | .hbm, ⟨86, _⟩ => ⟨S1024x41, .f32⟩
  | .hbm, ⟨87, _⟩ => ⟨S_, .f32⟩
  | .hbm, ⟨88, _⟩ => ⟨S1024, .f32⟩
  | .hbm, ⟨89, _⟩ => ⟨S1024x1, .f32⟩
  | .hbm, ⟨90, _⟩ => ⟨S1024x1, .f32⟩
  | .hbm, ⟨91, _⟩ => ⟨S1024x41, .f32⟩
  | .hbm, ⟨92, _⟩ => ⟨S1024x41, .f32⟩
  | _, _ => ⟨S120000x602, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_call1_cst_0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_cst_1 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_v53 : Ref sig .tc := ⟨.hbm, 92, rfl⟩

abbrev nD : Nat := 1
abbrev τ : Topo := Topo.v7x

variable {F : FTy → Type} [FloatOps F]

class Facts₀ : Prop where
  slices_S120000x602_S10000x602_0_0 : S120000x602.Slices ![0, 0] S10000x602
  bcast_S_S250000 : S_.BroadcastsInDim S250000 (![] : Fin 0 → Fin S250000.rank)
  bcast_S250000_S250000x1_0 : S250000.BroadcastsInDim S250000x1 (![0] : Fin 1 → Fin S250000x1.rank)
  bcast_S_S10000x602 : S_.BroadcastsInDim S10000x602 (![] : Fin 0 → Fin S10000x602.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x602_0_1 : S10000x1.BroadcastsInDim S10000x602 (![0, 1] : Fin 2 → Fin S10000x602.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  slices_S10000x256_S1024x256_0_0 : S10000x256.Slices ![0, 0] S1024x256
  bcast_S_S25600 : S_.BroadcastsInDim S25600 (![] : Fin 0 → Fin S25600.rank)
  bcast_S25600_S25600x1_0 : S25600.BroadcastsInDim S25600x1 (![0] : Fin 1 → Fin S25600x1.rank)
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S41_S1x41_1 : S41.BroadcastsInDim S1x41 (![1] : Fin 1 → Fin S1x41.rank)
  bcast_S1x41_S1024x41_0_1 : S1x41.BroadcastsInDim S1024x41 (![0, 1] : Fin 2 → Fin S1024x41.rank)
  reducesTo_S1024x41_S1024_d1 : S1024x41.ReducesTo [1] S1024
  h_S_ : 0 < S_.numel
  bcast_S1024x1_S1024x41_0_1 : S1024x1.BroadcastsInDim S1024x41 (![0, 1] : Fin 2 → Fin S1024x41.rank)
  gather_S120000x602_S250000x1_S250000x602_1_0_n_n_0_1_1602_wf : GatherDims.WF S120000x602 S250000x1 S250000x602 [1] [0] [] [0] [] 1 ![1, 602]
  scatter_S10000x602_S250000x1_S250000x602_1_0_0_1_wf : ScatterDims.WF S10000x602 S250000x1 S250000x602 [1] [0] [0] 1
  scatter_S10000_S250000x1_S250000_n_0_0_1_wf : ScatterDims.WF S10000 S250000x1 S250000 [] [0] [0] 1
  dot_S10000x602_S602x256_S10000x256_1_0_0_1_n_n_wf : DotDims.WF S10000x602 S602x256 S10000x256 [1] [0] [0] [1] [] []
  gather_S10000x256_S25600x1_S25600x256_1_0_n_n_0_1_1256_wf : GatherDims.WF S10000x256 S25600x1 S25600x256 [1] [0] [] [0] [] 1 ![1, 256]
  scatter_S1024x256_S25600x1_S25600x256_1_0_0_1_wf : ScatterDims.WF S1024x256 S25600x1 S25600x256 [1] [0] [0] 1
  scatter_S1024_S25600x1_S25600_n_0_0_1_wf : ScatterDims.WF S1024 S25600x1 S25600 [] [0] [0] 1
  dot_S1024x256_S256x41_S1024x41_1_0_0_1_n_n_wf : DotDims.WF S1024x256 S256x41 S1024x41 [1] [0] [0] [1] [] []

variable [Facts₀]

def gather_S120000x602_S250000x1_S250000x602_1_0_n_n_0_1_1602 : GatherDims S120000x602 S250000x1 S250000x602 where
  offsetDims := [1]
  collapsedSliceDims := [0]
  operandBatchingDims := []
  startIndicesBatchingDims := []
  startIndexMap := [0]
  indexVectorDim := 1
  sliceSizes := ![1, 602]
  wf := gather_S120000x602_S250000x1_S250000x602_1_0_n_n_0_1_1602_wf
def scatter_S10000x602_S250000x1_S250000x602_1_0_0_1 : ScatterDims S10000x602 S250000x1 S250000x602 where
  updateWindowDims := [1]
  insertedWindowDims := [0]
  scatterDimsToOperandDims := [0]
  indexVectorDim := 1
  wf := scatter_S10000x602_S250000x1_S250000x602_1_0_0_1_wf
def scatter_S10000_S250000x1_S250000_n_0_0_1 : ScatterDims S10000 S250000x1 S250000 where
  updateWindowDims := []
  insertedWindowDims := [0]
  scatterDimsToOperandDims := [0]
  indexVectorDim := 1
  wf := scatter_S10000_S250000x1_S250000_n_0_0_1_wf
def dot_S10000x602_S602x256_S10000x256_1_0_0_1_n_n : DotDims S10000x602 S602x256 S10000x256 where
  lhsContracting := [1]
  rhsContracting := [0]
  lhsNonContracting := [0]
  rhsNonContracting := [1]
  lhsBatch := []
  rhsBatch := []
  wf := dot_S10000x602_S602x256_S10000x256_1_0_0_1_n_n_wf
def gather_S10000x256_S25600x1_S25600x256_1_0_n_n_0_1_1256 : GatherDims S10000x256 S25600x1 S25600x256 where
  offsetDims := [1]
  collapsedSliceDims := [0]
  operandBatchingDims := []
  startIndicesBatchingDims := []
  startIndexMap := [0]
  indexVectorDim := 1
  sliceSizes := ![1, 256]
  wf := gather_S10000x256_S25600x1_S25600x256_1_0_n_n_0_1_1256_wf
def scatter_S1024x256_S25600x1_S25600x256_1_0_0_1 : ScatterDims S1024x256 S25600x1 S25600x256 where
  updateWindowDims := [1]
  insertedWindowDims := [0]
  scatterDimsToOperandDims := [0]
  indexVectorDim := 1
  wf := scatter_S1024x256_S25600x1_S25600x256_1_0_0_1_wf
def scatter_S1024_S25600x1_S25600_n_0_0_1 : ScatterDims S1024 S25600x1 S25600 where
  updateWindowDims := []
  insertedWindowDims := [0]
  scatterDimsToOperandDims := [0]
  indexVectorDim := 1
  wf := scatter_S1024_S25600x1_S25600_n_0_0_1_wf
def dot_S1024x256_S256x41_S1024x41_1_0_0_1_n_n : DotDims S1024x256 S256x41 S1024x41 where
  lhsContracting := [1]
  rhsContracting := [0]
  lhsNonContracting := [0]
  rhsNonContracting := [1]
  lhsBatch := []
  rhsBatch := []
  wf := dot_S1024x256_S256x41_S1024x41_1_0_0_1_n_n_wf

class Facts : Prop extends Facts₀ where

variable [Facts]
-- ==== Proof.Sage.lean ====
/-
  The mathematics both programs compute, stated once over the extended reals and over no program.

  A SAGE layer's dense stage takes, for target row `r` and output column `j`, the mean-aggregated neighbour row `a r`
  through the weights `wl`, the target's own row `x r` through `wr`, and a bias `b j`:
      (∑ₜ a[r,t]·wl[t,j])  +  (∑ₜ x[r,t]·wr[t,j])  +  b[j].
  One program adds the bias last, the other between the two products; addition on the extended reals is commutative
  and associative (also at ±∞), so the two are one value: `denseBiasLast_eq_mid`.

  The second layer ends in a row-wise log-softmax: with `M` the row's largest entry (the fold of `max` from −∞),
      row[j] − M − log (∑ⱼ' exp (row[j'] − M)).
-/
import Idealize.ShloMosaic.PureOps.Ideal
import Idealize.ShloMosaic.Lib.ValueIdx

noncomputable section

namespace Cert.Sage

open Idealize.ShloMosaic Idealize.ShloMosaic.ValueIdx

/-- The dense stage at (r, j), the bias added after both products. -/
def denseBiasLast {n k m : Nat} (a x : (⟨2, ![n, k]⟩ : Shape).Idx → EReal) (wl wr : (⟨2, ![k, m]⟩ : Shape).Idx → EReal)
    (b : (⟨1, ![m]⟩ : Shape).Idx → EReal) (r : Fin n) (j : Fin m) : EReal :=
  (∑ t : Fin k, a (ix2 r t) * wl (ix2 t j) + ∑ t : Fin k, x (ix2 r t) * wr (ix2 t j)) + b (ix1 j)

/-- The dense stage at (r, j), the bias added to the first product before the second joins. -/
def denseBiasMid {n k m : Nat} (a x : (⟨2, ![n, k]⟩ : Shape).Idx → EReal) (wl wr : (⟨2, ![k, m]⟩ : Shape).Idx → EReal)
    (b : (⟨1, ![m]⟩ : Shape).Idx → EReal) (r : Fin n) (j : Fin m) : EReal :=
  (∑ t : Fin k, a (ix2 r t) * wl (ix2 t j) + b (ix1 j)) + ∑ t : Fin k, x (ix2 r t) * wr (ix2 t j)

/-- The two associations agree: `(p + q) + b = (p + b) + q` in any commutative additive monoid, the extended reals
    among them, so no finiteness is asked of the operands. -/
theorem denseBiasLast_eq_mid {n k m : Nat} (a x : (⟨2, ![n, k]⟩ : Shape).Idx → EReal) (wl wr : (⟨2, ![k, m]⟩ : Shape).Idx → EReal)
    (b : (⟨1, ![m]⟩ : Shape).Idx → EReal) (r : Fin n) (j : Fin m) :
    denseBiasLast a x wl wr b r j = denseBiasMid a x wl wr b r j :=
  add_right_comm _ _ _

/-- A row's largest entry: the fold of `max` over the row from −∞ (the pattern `0xFF800000`). -/
def rowMax {n : Nat} (row : Fin n → EReal) : EReal :=
  (Finset.univ : Finset (Fin n)).fold max (Ideal.ofBits .f32 0xFF800000#32) row

/-- Entry `j` of a row's log-softmax, shifted by the row's largest entry. -/
def logSoftmaxRow {n : Nat} (row : Fin n → EReal) (j : Fin n) : EReal :=
  (row j - rowMax row) - Ideal.log (∑ j' : Fin n, Ideal.exp (row j' - rowMax row))

/-- The row's largest entry is at least the fold's starting value, so taking `max` with that value again changes
    nothing. -/
theorem max_init_rowMax {n : Nat} (row : Fin n → EReal) :
    max (Ideal.ofBits .f32 0xFF800000#32) (rowMax row) = rowMax row :=
  max_eq_right (Finset.le_fold_max (Ideal.ofBits .f32 0xFF800000#32) |>.mpr (Or.inl le_rfl))

end Cert.Sage

end
-- ==== Proof.Hop1Pay.lean ====
/-
  The first layer's kernel body on one tile of 1000 target rows, read at an entry (p, q) of the tile: the two
  matrix products into zero accumulators are the two sums over the 602 features, the narrowing to bf16 is the
  identity on extended reals, the bias row is laid along every row, and the rectifier is `max · 0`.
-/
import proofs.«126439_j69801808494648_1_alg».proof.Proof.Gen.KernelIdeal.Skeleton
import proofs.«126439_j69801808494648_1_alg».proof.Proof.Sage
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## The product's operand indices, axis by axis

At output index `i` and contraction index `c` the left operand is read at (i 0, c) and the right one at (c, i 1). -/

private theorem hop1_lhs_0 (i : S1000x256.Idx) (c : dot_S1000x602_S602x256_S1000x256_1_0_0_1_n_n.contr.Idx) :
    (dot_S1000x602_S602x256_S1000x256_1_0_0_1_n_n.lhsIdx i c 0).val = (i 0).val := by
  unfold DotDims.lhsIdx
  rw [dif_neg (show ¬(0 : Fin S1000x602.rank) ∈ dot_S1000x602_S602x256_S1000x256_1_0_0_1_n_n.lhsBatch by decide), dif_pos (show (0 : Fin S1000x602.rank) ∈ dot_S1000x602_S602x256_S1000x256_1_0_0_1_n_n.lhsNonContracting by decide)]
  rfl
private theorem hop1_lhs_1 (i : S1000x256.Idx) (c : dot_S1000x602_S602x256_S1000x256_1_0_0_1_n_n.contr.Idx) :
    (dot_S1000x602_S602x256_S1000x256_1_0_0_1_n_n.lhsIdx i c 1).val = (c ⟨0, by decide⟩).val :=
  dot_S1000x602_S602x256_S1000x256_1_0_0_1_n_n.lhsIdx_val_of_single rfl i c
private theorem hop1_rhs_0 (i : S1000x256.Idx) (c : dot_S1000x602_S602x256_S1000x256_1_0_0_1_n_n.contr.Idx) :
    (dot_S1000x602_S602x256_S1000x256_1_0_0_1_n_n.rhsIdx i c 0).val = (c ⟨0, by decide⟩).val :=
  dot_S1000x602_S602x256_S1000x256_1_0_0_1_n_n.rhsIdx_val_of_single rfl i c
private theorem hop1_rhs_1 (i : S1000x256.Idx) (c : dot_S1000x602_S602x256_S1000x256_1_0_0_1_n_n.contr.Idx) :
    (dot_S1000x602_S602x256_S1000x256_1_0_0_1_n_n.rhsIdx i c 1).val = (i 1).val := by
  unfold DotDims.rhsIdx
  rw [dif_neg (show ¬(1 : Fin S602x256.rank) ∈ dot_S1000x602_S602x256_S1000x256_1_0_0_1_n_n.rhsBatch by decide), dif_pos (show (1 : Fin S602x256.rank) ∈ dot_S1000x602_S602x256_S1000x256_1_0_0_1_n_n.rhsNonContracting by decide)]
  rfl

/-- A product into the zero accumulator, read at (p, q): the sum over the 602 contracted coordinates of the left
    operand's row p times the right operand's column q. -/
private theorem hop1_mm_apply {φ₁ φ₂ : FTy} (lhs : FVec Ideal S1000x602 φ₁) (rhs : FVec Ideal S602x256 φ₂) (p : Fin 1000) (q : Fin 256) :
    matmul dot_S1000x602_S602x256_S1000x256_1_0_0_1_n_n none lhs rhs (constant S1000x256 .f32 0x00000000#32) (ix2 p q)
      = ∑ t : Fin 602, lhs (ix2 p t) * rhs (ix2 t q) := by
  simp only [matmul]
  rw [Ideal.matmul_constant_zero_apply, ← Equiv.sum_comp (contrEquiv1 dot_S1000x602_S602x256_S1000x256_1_0_0_1_n_n 602 rfl rfl).symm]
  refine Finset.sum_congr rfl fun k _ => ?_
  have hk := contrEquiv1_symm_val dot_S1000x602_S602x256_S1000x256_1_0_0_1_n_n 602 rfl rfl k
  have el : dot_S1000x602_S602x256_S1000x256_1_0_0_1_n_n.lhsIdx (ix2 p q) ((contrEquiv1 dot_S1000x602_S602x256_S1000x256_1_0_0_1_n_n 602 rfl rfl).symm k) = ix2 p k := funext fun a => Fin.ext (by
    match a with
    | ⟨0, _⟩ => exact hop1_lhs_0 _ _
    | ⟨1, _⟩ => exact (hop1_lhs_1 _ _).trans hk)
  have er : dot_S1000x602_S602x256_S1000x256_1_0_0_1_n_n.rhsIdx (ix2 p q) ((contrEquiv1 dot_S1000x602_S602x256_S1000x256_1_0_0_1_n_n 602 rfl rfl).symm k) = ix2 k q := funext fun a => Fin.ext (by
    match a with
    | ⟨0, _⟩ => exact (hop1_rhs_0 _ _).trans hk
    | ⟨1, _⟩ => exact hop1_rhs_1 _ _)
  rw [el, er]

/-- The bias vector cast to one row and laid along every row reads, at (p, q), the bias at q. -/
private theorem hop1_bias_apply (b : FVec Ideal S256 .f32) (h₁ : S256.ShapeCasts S1x256) (h₂ : S1x256.Broadcasts S1000x256)
    (p : Fin 1000) (q : Fin 256) :
    broadcastTo S1000x256 (shapeCast S1x256 b h₁) h₂ (ix2 p q) = b (ix1 q) :=
  (broadcastTo_1b_ab_apply _ h₂ p q).trans (shapeCast_a_1a_apply b h₁ 0 q)

/-- Entry (p, q) of what the body stores: the rectified dense stage of the tile's rows, the bias added last. -/
theorem hop1_pay_apply (v0 v3 : Vec Ideal S1000x602 .f32) (v6 v8 : Vec Ideal S602x256 .f32) (v10 : Vec Ideal S256 .f32)
    (p : Fin 1000) (q : Fin 256) :
    k0_pay1 (F := Ideal) v0 v3 v6 v8 v10 (ix2 p q) = max (Cert.Sage.denseBiasLast v0 v3 v6 v8 v10 p q) 0 := by
  simp only [k0_pay1, shapeCast_self]
  rw [maximumf_apply, addf_apply, addf_apply, hop1_mm_apply, hop1_mm_apply, hop1_bias_apply]
  rw [broadcast_apply, Ideal.ofBits_def, Ideal.ofBits_zero_f32]
  rfl

end Cert.KernelIdeal.Pay

end
-- ==== Proof.Hop1Blocks.lean ====
/-
  The first layer's result array after its pallas_call, as ONE function of the arrays the call finds.

  The call walks ten tiles of 1000 target rows. Tile `t` reads rows 1000·t … 1000·t + 999 of the aggregated
  features and of the targets' own features, the two weight matrices and the bias whole, and writes back rows
  1000·t … 1000·t + 999 of the 10000 × 256 result: entry (p, q) of what it writes is the rectified dense stage of row
  1000·t + p. The ten blocks tile the result, so the array ends holding, at every (r, j), the rectified dense stage of
  row r: any function `G` with that value at every (r, j) IS the array.
-/
import proofs.«126439_j69801808494648_1_alg».proof.Proof.Gen.KernelIdeal.Frame
import proofs.«126439_j69801808494648_1_alg».proof.Proof.Hop1Pay
import Idealize.ShloMosaic.Lib.Pipeline.Value
import Idealize.ShloMosaic.Lib.ValueIdx

set_option maxRecDepth 16384

noncomputable section

namespace Cert.KernelIdeal.Hop1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the ten tiles: the two row-tiled inputs move with the output's row tile, every
    other block index is zero, and the row tile's index stays below ten. -/
theorem idx_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0
    ∧ win0_5.index t (0 : Fin 2) ≤ 9 :=
  (by decide +kernel : ∀ t : Fin grid0.N, _)

/-- Every row tile is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

variable (c : Dev nD) (G : Buf (Elt Ideal) ((c : Thread nD τ).loc main_v20))

/-- What tile `t` writes back is block `t` of `G`, for any `G` that holds the rectified dense stage of row r at (r, j). -/
theorem flushed_eq
    (hG : ∀ (r : Fin 10000) (j : Fin 256), G (ix2 r j)
      = max (Cert.Sage.denseBiasLast (V c main_v18) (V c main_v19) (V c main_arg5) (V c main_arg6) (V c main_arg7) r j) 0)
    (t : Fin cfg0.N) :
    (dat0 V c).flushed 5 t = ((cfg0.win 5).blk t).view.read (Elt Ideal) G := by
  show (cfg0.win 5).cut (grid0.coords t) ((dat0 V c).after 5 t) = _
  rw [after0_5]
  unfold out0_5
  rw [View.canon_unit_zero zero2]
  simp only [View.ld_unit_zero (S := S1000x602) zero2, View.ld_unit_zero (S := S602x256) zero2, View.ld_unit_zero (S := S256) zero1]
  funext y
  obtain ⟨p, q, rfl⟩ : ∃ (p : Fin 1000) (q : Fin 256), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
    = G (((cfg0.win 5).blk t).view.emb (ix2 p q))
  obtain ⟨e00, e01, e10, e11, e20, e21, e30, e31, e40, e51, e5⟩ := idx_facts t
  have hp : p.val < 1000 := p.isLt
  have hq : q.val < 256 := q.isLt
  have hemb : ((cfg0.win 5).blk t).view.emb (ix2 p q)
      = ix2 (⟨win0_5.index t (0 : Fin 2) * 1000 + p.val, by omega⟩ : Fin 10000) q := by
    funext a; apply Fin.ext
    match a with
    | ⟨0, _⟩ => show win0_5.index t (0 : Fin 2) * 1000 + 1 * p.val = win0_5.index t (0 : Fin 2) * 1000 + p.val; omega
    | ⟨1, _⟩ => show win0_5.index t (1 : Fin 2) * 256 + 1 * q.val = q.val; omega
  rw [hemb, hG]
  refine (Cert.KernelIdeal.Pay.hop1_pay_apply (iblk0 V c 0 t) (iblk0 V c 1 t) (iblk0 V c 2 t) (iblk0 V c 3 t) (iblk0 V c 4 t) p q).trans ?_
  have b0 : ∀ k : Fin 602, iblk0 V c 0 t (ix2 p k)
      = V c main_v18 (ix2 (⟨win0_5.index t (0 : Fin 2) * 1000 + p.val, by omega⟩ : Fin 10000) k) := fun k => by
    show V c main_v18 (((cfg0.win 0).blk t).view.emb (ix2 p k)) = _
    refine congrArg (V c main_v18) ?_
    funext a; apply Fin.ext
    match a with
    | ⟨0, _⟩ => show win0_0.index t (0 : Fin 2) * 1000 + 1 * p.val = win0_5.index t (0 : Fin 2) * 1000 + p.val; omega
    | ⟨1, _⟩ => show win0_0.index t (1 : Fin 2) * 602 + 1 * k.val = k.val; omega
  have b1 : ∀ k : Fin 602, iblk0 V c 1 t (ix2 p k)
      = V c main_v19 (ix2 (⟨win0_5.index t (0 : Fin 2) * 1000 + p.val, by omega⟩ : Fin 10000) k) := fun k => by
    show V c main_v19 (((cfg0.win 1).blk t).view.emb (ix2 p k)) = _
    refine congrArg (V c main_v19) ?_
    funext a; apply Fin.ext
    match a with
    | ⟨0, _⟩ => show win0_1.index t (0 : Fin 2) * 1000 + 1 * p.val = win0_5.index t (0 : Fin 2) * 1000 + p.val; omega
    | ⟨1, _⟩ => show win0_1.index t (1 : Fin 2) * 602 + 1 * k.val = k.val; omega
  have b2 : ∀ k : Fin 602, iblk0 V c 2 t (ix2 k q) = V c main_arg5 (ix2 k q) := fun k => by
    show V c main_arg5 (((cfg0.win 2).blk t).view.emb (ix2 k q)) = _
    refine congrArg (V c main_arg5) ?_
    funext a; apply Fin.ext
    match a with
    | ⟨0, _⟩ => show win0_2.index t (0 : Fin 2) * 602 + 1 * k.val = k.val; omega
    | ⟨1, _⟩ => show win0_2.index t (1 : Fin 2) * 256 + 1 * q.val = q.val; omega
  have b3 : ∀ k : Fin 602, iblk0 V c 3 t (ix2 k q) = V c main_arg6 (ix2 k q) := fun k => by
    show V c main_arg6 (((cfg0.win 3).blk t).view.emb (ix2 k q)) = _
    refine congrArg (V c main_arg6) ?_
    funext a; apply Fin.ext
    match a with
    | ⟨0, _⟩ => show win0_3.index t (0 : Fin 2) * 602 + 1 * k.val = k.val; omega
    | ⟨1, _⟩ => show win0_3.index t (1 : Fin 2) * 256 + 1 * q.val = q.val; omega
  have b4 : iblk0 V c 4 t (ix1 q) = V c main_arg7 (ix1 q) := by
    show V c main_arg7 (((cfg0.win 4).blk t).view.emb (ix1 q)) = _
    refine congrArg (V c main_arg7) ?_
    funext a; apply Fin.ext
    match a with
    | ⟨0, _⟩ => show win0_4.index t (0 : Fin 1) * 256 + 1 * q.val = q.val; omega
  unfold Cert.Sage.denseBiasLast
  simp only [b0, b1, b2, b3, b4]

/-- An index of the result is in tile `t`'s block iff each coordinate is in the block's range on its axis. -/
theorem mem_blk (t : Fin cfg0.N) (i : S10000x256.Idx) :
    i ∈ ((cfg0.win 5).blk t).view.set ↔ ∀ a : Fin 2, win0_5.index t a * S1000x256.size a ≤ (i a).val ∧ (i a).val < win0_5.index t a * S1000x256.size a + S1000x256.size a := by
  show i ∈ ((View.whole main_v20).slice (win0_5.rect t)).set ↔ _
  rw [View.set_slice_whole, Rect.mem_set_unit]
  exact Iff.rfl

/-- Row r lies in the block of the tile numbered r / 1000: the ten blocks cover the result. -/
theorem cover (i : S10000x256.Idx) : ∃ t : Fin cfg0.N, (cfg0.win 5).flush t = true ∧ i ∈ ((cfg0.win 5).blk t).view.set := by
  have hi0 : (i 0).val < 10000 := (i 0).isLt
  have hi1 : (i 1).val < 256 := (i 1).isLt
  obtain ⟨t, ht⟩ := idx_onto ⟨(i 0).val / 1000, by omega⟩
  have q0 : win0_5.index t (0 : Fin 2) = (i 0).val / 1000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 256 ≤ (i 1).val ∧ (i 1).val < win0_5.index t (1 : Fin 2) * 256 + 256; omega

/-- THE RESULT ARRAY after the first pallas_call: any `G` that holds the rectified dense stage of row r at (r, j). -/
theorem final
    (hG : ∀ (r : Fin 10000) (j : Fin 256), G (ix2 r j)
      = max (Cert.Sage.denseBiasLast (V c main_v18) (V c main_v19) (V c main_arg5) (V c main_arg6) (V c main_arg7) r j) 0) :
    (dat0 V c).arrAt 5 cfg0.N = G :=
  (dat0 V c).arrAt_eq_of_cover 5 G (fun t _ => flushed_eq V c G hG t) cover

end Cert.KernelIdeal.Hop1

end
-- ==== Proof.Hop2Pay.lean ====
/-
  The second layer's kernel body on its one block of 1024 target rows, read at an entry (r, j): the dense stage
  (two sums over the 256 hidden features, the bias last), then the row's log-softmax — the lane maximum is the fold
  of `max` from −∞ over the row's 41 entries, the lane sum the sum of the exponentials of the shifted row.
-/
import proofs.«126439_j69801808494648_1_alg».proof.Proof.Gen.KernelIdeal.Skeleton
import proofs.«126439_j69801808494648_1_alg».proof.Proof.Sage
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## The product's operand indices, axis by axis

At output index `i` and contraction index `c` the left operand is read at (i 0, c) and the right one at (c, i 1). -/

private theorem hop2_lhs_0 (i : S1024x41.Idx) (c : dot_S1024x256_S256x41_S1024x41_1_0_0_1_n_n.contr.Idx) :
    (dot_S1024x256_S256x41_S1024x41_1_0_0_1_n_n.lhsIdx i c 0).val = (i 0).val := by
  unfold DotDims.lhsIdx
  rw [dif_neg (show ¬(0 : Fin S1024x256.rank) ∈ dot_S1024x256_S256x41_S1024x41_1_0_0_1_n_n.lhsBatch by decide), dif_pos (show (0 : Fin S1024x256.rank) ∈ dot_S1024x256_S256x41_S1024x41_1_0_0_1_n_n.lhsNonContracting by decide)]
  rfl
private theorem hop2_lhs_1 (i : S1024x41.Idx) (c : dot_S1024x256_S256x41_S1024x41_1_0_0_1_n_n.contr.Idx) :
    (dot_S1024x256_S256x41_S1024x41_1_0_0_1_n_n.lhsIdx i c 1).val = (c ⟨0, by decide⟩).val :=
  dot_S1024x256_S256x41_S1024x41_1_0_0_1_n_n.lhsIdx_val_of_single rfl i c
private theorem hop2_rhs_0 (i : S1024x41.Idx) (c : dot_S1024x256_S256x41_S1024x41_1_0_0_1_n_n.contr.Idx) :
    (dot_S1024x256_S256x41_S1024x41_1_0_0_1_n_n.rhsIdx i c 0).val = (c ⟨0, by decide⟩).val :=
  dot_S1024x256_S256x41_S1024x41_1_0_0_1_n_n.rhsIdx_val_of_single rfl i c
private theorem hop2_rhs_1 (i : S1024x41.Idx) (c : dot_S1024x256_S256x41_S1024x41_1_0_0_1_n_n.contr.Idx) :
    (dot_S1024x256_S256x41_S1024x41_1_0_0_1_n_n.rhsIdx i c 1).val = (i 1).val := by
  unfold DotDims.rhsIdx
  rw [dif_neg (show ¬(1 : Fin S256x41.rank) ∈ dot_S1024x256_S256x41_S1024x41_1_0_0_1_n_n.rhsBatch by decide), dif_pos (show (1 : Fin S256x41.rank) ∈ dot_S1024x256_S256x41_S1024x41_1_0_0_1_n_n.rhsNonContracting by decide)]
  rfl

/-- A product into the zero accumulator, read at (r, j): the sum over the 256 contracted coordinates of the left
    operand's row r times the right operand's column j. -/
private theorem hop2_mm_apply {φ₁ φ₂ : FTy} (lhs : FVec Ideal S1024x256 φ₁) (rhs : FVec Ideal S256x41 φ₂) (r : Fin 1024) (j : Fin 41) :
    matmul dot_S1024x256_S256x41_S1024x41_1_0_0_1_n_n none lhs rhs (constant S1024x41 .f32 0x00000000#32) (ix2 r j)
      = ∑ t : Fin 256, lhs (ix2 r t) * rhs (ix2 t j) := by
  simp only [matmul]
  rw [Ideal.matmul_constant_zero_apply, ← Equiv.sum_comp (contrEquiv1 dot_S1024x256_S256x41_S1024x41_1_0_0_1_n_n 256 rfl rfl).symm]
  refine Finset.sum_congr rfl fun k _ => ?_
  have hk := contrEquiv1_symm_val dot_S1024x256_S256x41_S1024x41_1_0_0_1_n_n 256 rfl rfl k
  have el : dot_S1024x256_S256x41_S1024x41_1_0_0_1_n_n.lhsIdx (ix2 r j) ((contrEquiv1 dot_S1024x256_S256x41_S1024x41_1_0_0_1_n_n 256 rfl rfl).symm k) = ix2 r k := funext fun a => Fin.ext (by
    match a with
    | ⟨0, _⟩ => exact hop2_lhs_0 _ _
    | ⟨1, _⟩ => exact (hop2_lhs_1 _ _).trans hk)
  have er : dot_S1024x256_S256x41_S1024x41_1_0_0_1_n_n.rhsIdx (ix2 r j) ((contrEquiv1 dot_S1024x256_S256x41_S1024x41_1_0_0_1_n_n 256 rfl rfl).symm k) = ix2 k j := funext fun a => Fin.ext (by
    match a with
    | ⟨0, _⟩ => exact (hop2_rhs_0 _ _).trans hk
    | ⟨1, _⟩ => exact hop2_rhs_1 _ _)
  rw [el, er]

/-- The bias vector cast to one row and laid along every row reads, at (r, j), the bias at j. -/
private theorem hop2_bias_apply (b : FVec Ideal S41 .f32) (h₁ : S41.ShapeCasts S1x41) (h₂ : S1x41.Broadcasts S1024x41)
    (r : Fin 1024) (j : Fin 41) :
    broadcastTo S1024x41 (shapeCast S1x41 b h₁) h₂ (ix2 r j) = b (ix1 j) :=
  (broadcastTo_1b_ab_apply _ h₂ r j).trans (shapeCast_a_1a_apply b h₁ 0 j)

/-! ## A per-row value kept as a column and laid along the row -/

/-- A vector of 1024 entries cast to a column reads, at (r, u), its entry r. -/
private theorem hop2_ccol_apply {α : Type} (v : S1024.Idx → α) (h : S1024.ShapeCasts S1024x1) (r : Fin 1024) (u : Fin 1) :
    shapeCast S1024x1 v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- A column broadcast along the 41 lanes reads, at (r, j), the column's entry r. -/
private theorem hop2_bcol_apply {α : Type} (w : S1024x1.Idx → α) (h : S1024x1.Broadcasts S1024x41) (r : Fin 1024) (j : Fin 41) :
    broadcastTo S1024x41 w h (ix2 r j) = w (ix2 r (0 : Fin 1)) := by
  refine broadcastTo_apply w h (ix2 r j) (ix2 r (0 : Fin 1)) fun ax => ?_
  match ax with
  | ⟨0, _⟩ =>
    show r.val = if (1024 : Nat) = 1 then 0 else r.val
    rw [if_neg (by decide)]
  | ⟨1, _⟩ =>
    show (0 : Nat) = if (1 : Nat) = 1 then 0 else j.val
    rw [if_pos rfl]

/-! ## The two lane reductions -/

/-- The index a reduction over the lanes inserts lane k into, above row r, is (r, k). -/
private theorem hop2_lift_eq (h : S1024x41.Reduces [1] S1024) (r : Fin 1024) (k : Fin 41) : h.lift (ix1 r) k = ix2 r k :=
  funext fun a => Fin.ext (by match a with | ⟨0, _⟩ => rfl | ⟨1, _⟩ => rfl)

/-- The lane maximum of row r: the fold of `max` from −∞ over the row's entries. -/
private theorem hop2_max_apply (src : FVec Ideal S1024x41 .f32) (h : S1024x41.Reduces [1] S1024) (hφ : FKind.Formats .f32)
    (hacc : (0xFF800000#32 : BitVec 32) = FKind.maximumf.neutral .f32 hφ) (r : Fin 1024) :
    multiReduction (F := Ideal) .maximumf [1] S1024 src 0xFF800000#32 h hφ hacc (ix1 r)
      = Cert.Sage.rowMax fun j' : Fin 41 => src (ix2 r j') := by
  refine (Ideal.multiReduction_maximumf_single src _ h hφ hacc (ix1 r)).trans ?_
  have e : src ∘ h.lift (ix1 r) = fun j' : Fin 41 => src (ix2 r j') :=
    funext fun k => congrArg src (hop2_lift_eq h r k)
  exact congrArg (fun f : Fin 41 → EReal => (Finset.univ : Finset (Fin 41)).fold max (Ideal.ofBits .f32 0xFF800000#32) f) e

/-- The lane sum of row r: the sum of the row's entries. -/
private theorem hop2_sum_apply (src : FVec Ideal S1024x41 .f32) (h : S1024x41.Reduces [1] S1024) (hφ : FKind.Formats .f32)
    (hacc : (0x00000000#32 : BitVec 32) = FKind.add.neutral .f32 hφ) (r : Fin 1024) :
    multiReduction (F := Ideal) .add [1] S1024 src 0x00000000#32 h hφ hacc (ix1 r) = ∑ j' : Fin 41, src (ix2 r j') :=
  (Ideal.multiReduction_add_single src _ h hφ hacc (ix1 r)).trans
    (Finset.sum_congr rfl fun k _ => congrArg src (hop2_lift_eq h r k))

/-! ## The log-softmax of a block, row by row -/

/-- A block less its rows' lane maxima (each kept as a column and laid along its row) reads, at (r, j), the entry
    less row r's largest entry. -/
private theorem hop2_shift_apply (d : FVec Ideal S1024x41 .f32) (hr : S1024x41.Reduces [1] S1024) (hc : S1024.ShapeCasts S1024x1)
    (hb : S1024x1.Broadcasts S1024x41) (hφ : FKind.Formats .f32) (hacc : (0xFF800000#32 : BitVec 32) = FKind.maximumf.neutral .f32 hφ)
    (r : Fin 1024) (j : Fin 41) :
    subf d (broadcastTo S1024x41 (shapeCast S1024x1 (multiReduction (F := Ideal) .maximumf [1] S1024 d 0xFF800000#32 hr hφ hacc) hc) hb) (ix2 r j)
      = d (ix2 r j) - Cert.Sage.rowMax fun j' : Fin 41 => d (ix2 r j') := by
  rw [subf_apply, hop2_bcol_apply, hop2_ccol_apply, hop2_max_apply]

/-- The kernel's log-softmax of a block `d`, read at (r, j): the log-softmax of row r at j. -/
private theorem hop2_tail_apply (d : FVec Ideal S1024x41 .f32) (hr : S1024x41.Reduces [1] S1024) (hc : S1024.ShapeCasts S1024x1)
    (hb : S1024x1.Broadcasts S1024x41) (hφm hφa : FKind.Formats .f32) (haccm : (0xFF800000#32 : BitVec 32) = FKind.maximumf.neutral .f32 hφm)
    (hacca : (0x00000000#32 : BitVec 32) = FKind.add.neutral .f32 hφa) (r : Fin 1024) (j : Fin 41) :
    subf (subf d (broadcastTo S1024x41 (shapeCast S1024x1 (multiReduction (F := Ideal) .maximumf [1] S1024 d 0xFF800000#32 hr hφm haccm) hc) hb))
        (broadcastTo S1024x41 (log (shapeCast S1024x1 (multiReduction (F := Ideal) .add [1] S1024
          (exp (subf d (broadcastTo S1024x41 (shapeCast S1024x1 (multiReduction (F := Ideal) .maximumf [1] S1024 d 0xFF800000#32 hr hφm haccm) hc) hb)))
          0x00000000#32 hr hφa hacca) hc)) hb) (ix2 r j)
      = Cert.Sage.logSoftmaxRow (fun j' : Fin 41 => d (ix2 r j')) j := by
  rw [subf_apply, hop2_shift_apply, hop2_bcol_apply]
  show _ - Ideal.log (shapeCast S1024x1 _ hc (ix2 r (0 : Fin 1))) = _
  rw [hop2_ccol_apply, hop2_sum_apply]
  unfold Cert.Sage.logSoftmaxRow
  refine congrArg (fun z : EReal => (d (ix2 r j) - Cert.Sage.rowMax fun j' : Fin 41 => d (ix2 r j')) - Ideal.log z)
    (Finset.sum_congr rfl fun j' _ => ?_)
  show Ideal.exp (subf d _ (ix2 r j')) = _
  rw [hop2_shift_apply]

/-- Entry (r, j) of what the body stores: the log-softmax of row r of the dense stage. -/
theorem hop2_pay_apply (v0 v3 : Vec Ideal S1024x256 .f32) (v6 v8 : Vec Ideal S256x41 .f32) (v10 : Vec Ideal S41 .f32)
    (r : Fin 1024) (j : Fin 41) :
    k1_pay1 (F := Ideal) v0 v3 v6 v8 v10 (ix2 r j)
      = Cert.Sage.logSoftmaxRow (fun j' : Fin 41 => Cert.Sage.denseBiasLast v0 v3 v6 v8 v10 r j') j := by
  simp only [k1_pay1, shapeCast_self]
  refine (hop2_tail_apply _ _ _ _ _ _ _ _ r j).trans ?_
  refine congrArg (fun row : Fin 41 → EReal => Cert.Sage.logSoftmaxRow row j) (funext fun j' => ?_)
  rw [addf_apply, addf_apply, hop2_mm_apply, hop2_mm_apply, hop2_bias_apply]
  rfl

end Cert.KernelIdeal.Pay

end
-- ==== Proof.Hop2Blocks.lean ====
/-
  The second layer's result array after its pallas_call, as ONE function of the arrays the call finds.

  The call has a single grid point whose blocks are the whole arrays: it reads the 1024 aggregated hidden rows, the
  1024 targets' own hidden rows, the two 256 × 41 weight matrices and the bias, and writes back the whole 1024 × 41
  result: entry (r, j) is entry j of the log-softmax of row r of the dense stage. So any function `G` with that
  value at every (r, j) IS the array after the call.
-/
import proofs.«126439_j69801808494648_1_alg».proof.Proof.Gen.KernelIdeal.Frame
import proofs.«126439_j69801808494648_1_alg».proof.Proof.Hop2Pay
import Idealize.ShloMosaic.Lib.Pipeline.Value
import Idealize.ShloMosaic.Lib.ValueIdx

set_option maxRecDepth 16384

noncomputable section

namespace Cert.KernelIdeal.Hop2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps at the one grid point: every block index is zero. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0 :=
  (by decide +kernel : ∀ t : Fin grid1.N, _)

variable (c : Dev nD) (G : Buf (Elt Ideal) ((c : Thread nD τ).loc main_v41))

/-- What the one point writes back is the whole of `G`, for any `G` that holds at (r, j) entry j of the log-softmax
    of row r of the dense stage. -/
theorem flushed_eq
    (hG : ∀ (r : Fin 1024) (j : Fin 41), G (ix2 r j)
      = Cert.Sage.logSoftmaxRow (fun j' : Fin 41 =>
          Cert.Sage.denseBiasLast (V c main_v39) (V c main_v40) (V c main_arg8) (V c main_arg9) (V c main_arg10) r j') j)
    (t : Fin cfg1.N) :
    (dat1 V c).flushed 5 t = ((cfg1.win 5).blk t).view.read (Elt Ideal) G := by
  show (cfg1.win 5).cut (grid1.coords t) ((dat1 V c).after 5 t) = _
  rw [after1_5]
  unfold out1_5
  rw [View.canon_unit_zero zero2]
  simp only [View.ld_unit_zero (S := S1024x256) zero2, View.ld_unit_zero (S := S256x41) zero2, View.ld_unit_zero (S := S41) zero1]
  funext y
  obtain ⟨r, j, rfl⟩ : ∃ (r : Fin 1024) (j : Fin 41), y = ix2 r j := ⟨y 0, y 1, eq_ix2 y⟩
  show k1_pay1 (F := Ideal) (iblk1 V c 0 t) (iblk1 V c 1 t) (iblk1 V c 2 t) (iblk1 V c 3 t) (iblk1 V c 4 t) (ix2 r j)
    = G (((cfg1.win 5).blk t).view.emb (ix2 r j))
  obtain ⟨e00, e01, e10, e11, e20, e21, e30, e31, e40, e50, e51⟩ := idx_facts t
  have hemb : ((cfg1.win 5).blk t).view.emb (ix2 r j) = ix2 r j := by
    funext a; apply Fin.ext
    match a with
    | ⟨0, _⟩ => show win1_5.index t (0 : Fin 2) * 1024 + 1 * r.val = r.val; omega
    | ⟨1, _⟩ => show win1_5.index t (1 : Fin 2) * 41 + 1 * j.val = j.val; omega
  rw [hemb, hG]
  refine (Cert.KernelIdeal.Pay.hop2_pay_apply (iblk1 V c 0 t) (iblk1 V c 1 t) (iblk1 V c 2 t) (iblk1 V c 3 t) (iblk1 V c 4 t) r j).trans ?_
  have b0 : ∀ k : Fin 256, iblk1 V c 0 t (ix2 r k) = V c main_v39 (ix2 r k) := fun k => by
    show V c main_v39 (((cfg1.win 0).blk t).view.emb (ix2 r k)) = _
    refine congrArg (V c main_v39) ?_
    funext a; apply Fin.ext
    match a with
    | ⟨0, _⟩ => show win1_0.index t (0 : Fin 2) * 1024 + 1 * r.val = r.val; omega
    | ⟨1, _⟩ => show win1_0.index t (1 : Fin 2) * 256 + 1 * k.val = k.val; omega
  have b1 : ∀ k : Fin 256, iblk1 V c 1 t (ix2 r k) = V c main_v40 (ix2 r k) := fun k => by
    show V c main_v40 (((cfg1.win 1).blk t).view.emb (ix2 r k)) = _
    refine congrArg (V c main_v40) ?_
    funext a; apply Fin.ext
    match a with
    | ⟨0, _⟩ => show win1_1.index t (0 : Fin 2) * 1024 + 1 * r.val = r.val; omega
    | ⟨1, _⟩ => show win1_1.index t (1 : Fin 2) * 256 + 1 * k.val = k.val; omega
  have b2 : ∀ (k : Fin 256) (j' : Fin 41), iblk1 V c 2 t (ix2 k j') = V c main_arg8 (ix2 k j') := fun k j' => by
    show V c main_arg8 (((cfg1.win 2).blk t).view.emb (ix2 k j')) = _
    refine congrArg (V c main_arg8) ?_
    funext a; apply Fin.ext
    match a with
    | ⟨0, _⟩ => show win1_2.index t (0 : Fin 2) * 256 + 1 * k.val = k.val; omega
    | ⟨1, _⟩ => show win1_2.index t (1 : Fin 2) * 41 + 1 * j'.val = j'.val; omega
  have b3 : ∀ (k : Fin 256) (j' : Fin 41), iblk1 V c 3 t (ix2 k j') = V c main_arg9 (ix2 k j') := fun k j' => by
    show V c main_arg9 (((cfg1.win 3).blk t).view.emb (ix2 k j')) = _
    refine congrArg (V c main_arg9) ?_
    funext a; apply Fin.ext
    match a with
    | ⟨0, _⟩ => show win1_3.index t (0 : Fin 2) * 256 + 1 * k.val = k.val; omega
    | ⟨1, _⟩ => show win1_3.index t (1 : Fin 2) * 41 + 1 * j'.val = j'.val; omega
  have b4 : ∀ j' : Fin 41, iblk1 V c 4 t (ix1 j') = V c main_arg10 (ix1 j') := fun j' => by
    show V c main_arg10 (((cfg1.win 4).blk t).view.emb (ix1 j')) = _
    refine congrArg (V c main_arg10) ?_
    funext a; apply Fin.ext
    match a with
    | ⟨0, _⟩ => show win1_4.index t (0 : Fin 1) * 41 + 1 * j'.val = j'.val; omega
  unfold Cert.Sage.denseBiasLast
  simp only [b0, b1, b2, b3, b4]

/-- An index of the result is in the one point's block iff each coordinate is in the block's range on its axis. -/
theorem mem_blk (t : Fin cfg1.N) (i : S1024x41.Idx) :
    i ∈ ((cfg1.win 5).blk t).view.set ↔ ∀ a : Fin 2, win1_5.index t a * S1024x41.size a ≤ (i a).val ∧ (i a).val < win1_5.index t a * S1024x41.size a + S1024x41.size a := by
  show i ∈ ((View.whole main_v41).slice (win1_5.rect t)).set ↔ _
  rw [View.set_slice_whole, Rect.mem_set_unit]
  exact Iff.rfl

/-- The one block is the whole result. -/
theorem cover (i : S1024x41.Idx) : ∃ t : Fin cfg1.N, (cfg1.win 5).flush t = true ∧ i ∈ ((cfg1.win 5).blk t).view.set := by
  have hi0 : (i 0).val < 1024 := (i 0).isLt
  have hi1 : (i 1).val < 41 := (i 1).isLt
  obtain ⟨e00, e01, e10, e11, e20, e21, e30, e31, e40, e50, e51⟩ := idx_facts t1_0
  refine ⟨t1_0, flush1_5 t1_0, ?_⟩
  rw [mem_blk]
  intro a
  match a with
  | ⟨0, _⟩ => show win1_5.index t1_0 (0 : Fin 2) * 1024 ≤ (i 0).val ∧ (i 0).val < win1_5.index t1_0 (0 : Fin 2) * 1024 + 1024; omega
  | ⟨1, _⟩ => show win1_5.index t1_0 (1 : Fin 2) * 41 ≤ (i 1).val ∧ (i 1).val < win1_5.index t1_0 (1 : Fin 2) * 41 + 41; omega

/-- THE RESULT ARRAY after the second pallas_call: any `G` that holds, at (r, j), entry j of the log-softmax of row r
    of the dense stage. -/
theorem final
    (hG : ∀ (r : Fin 1024) (j : Fin 41), G (ix2 r j)
      = Cert.Sage.logSoftmaxRow (fun j' : Fin 41 =>
          Cert.Sage.denseBiasLast (V c main_v39) (V c main_v40) (V c main_arg8) (V c main_arg9) (V c main_arg10) r j') j) :
    (dat1 V c).arrAt 5 cfg1.N = G :=
  (dat1 V c).arrAt_eq_of_cover 5 G (fun t _ => flushed_eq V c G hG t) cover

end Cert.KernelIdeal.Hop2

end
-- ==== Proof.Hop1Ref.lean ====
/-
  The reference's first layer read at an entry (r, j) of its 10000 × 256 result: the host's two `dot_general`s are
  the two sums over the 602 features (the mean-aggregated rows against `Wl1`, the targets' own rows against `Wr1`),
  the bias is broadcast along every row and added BETWEEN the two products, and `relu` is `max · 0`.
-/
import proofs.«126439_j69801808494648_1_alg».proof.Proof.RefRead
import proofs.«126439_j69801808494648_1_alg».proof.Proof.Sage

noncomputable section

namespace Cert.ReferenceIdeal.Stage

open Idealize.ShloMosaic Idealize.ShloMosaic.ValueIdx Cert.ReferenceIdeal Cert.ReferenceIdeal.ReadP

/-- The left operand index of the first product at entry (r, j) and feature k is (r, k). -/
private theorem lidx20_ix (r : Fin 10000) (j : Fin 256) (k : Fin 602) : lidx_main_v20 (ix2 r j) k = ix2 r k :=
  funext fun a => Fin.ext (by match a with | ⟨0, _⟩ => rfl | ⟨1, _⟩ => rfl)
/-- The right operand index of the first product at entry (r, j) and feature k is (k, j). -/
private theorem ridx20_ix (r : Fin 10000) (j : Fin 256) (k : Fin 602) : ridx_main_v20 (ix2 r j) k = ix2 k j :=
  funext fun a => Fin.ext (by match a with | ⟨0, _⟩ => rfl | ⟨1, _⟩ => rfl)
/-- The left operand index of the second product at entry (r, j) and feature k is (r, k). -/
private theorem lidx24_ix (r : Fin 10000) (j : Fin 256) (k : Fin 602) : lidx_main_v24 (ix2 r j) k = ix2 r k :=
  funext fun a => Fin.ext (by match a with | ⟨0, _⟩ => rfl | ⟨1, _⟩ => rfl)
/-- The right operand index of the second product at entry (r, j) and feature k is (k, j). -/
private theorem ridx24_ix (r : Fin 10000) (j : Fin 256) (k : Fin 602) : ridx_main_v24 (ix2 r j) k = ix2 k j :=
  funext fun a => Fin.ext (by match a with | ⟨0, _⟩ => rfl | ⟨1, _⟩ => rfl)
/-- The bias broadcast along the rows, read at entry (r, j), is the bias at j. -/
private theorem bias_ix (r : Fin 10000) (j : Fin 256) : idx_main_v21 (idx_main_v22 (ix2 r j)) = ix1 j :=
  funext fun a => Fin.ext (by match a with | ⟨0, _⟩ => rfl)

/-- Entry (r, j) of the hidden layer: the rectified dense stage, the bias added to the first product. The operands are
    the reference's own stages: the mean aggregation `val_main_v19` and the leading 10000 rows of `x`, `val_main_v0`. -/
theorem hop1_ref_apply (x0 : (⟨S120000x602, .f32⟩ : BufTy).Contents (Elt Ideal)) (x1 x2 : (⟨S250000, .i32⟩ : BufTy).Contents (Elt Ideal))
    (x5 x6 : (⟨S602x256, .f32⟩ : BufTy).Contents (Elt Ideal)) (x7 : (⟨S256, .f32⟩ : BufTy).Contents (Elt Ideal))
    (r : Fin 10000) (j : Fin 256) :
    val_main_v26 (F := Ideal) x0 x1 x2 x5 x6 x7 (ix2 r j)
      = max (Cert.Sage.denseBiasMid (val_main_v19 (F := Ideal) x0 x1 x2) (val_main_v0 (F := Ideal) x0) x5 x6 x7 r j) 0 := by
  rw [val_main_v26_apply, val_main_v25_apply, val_main_v23_apply, val_main_v20_apply, val_main_v24_apply,
    val_main_v22_apply, val_main_v21_apply, val_main_call0_v0_apply, val_main_call0_cst_apply]
  simp only [lidx20_ix, ridx20_ix, lidx24_ix, ridx24_ix, bias_ix, Ideal.maximumf_def, Ideal.addf_def, Ideal.ofBits_def,
    Ideal.ofBits_zero_f32, Cert.Sage.denseBiasMid]

end Cert.ReferenceIdeal.Stage

end
-- ==== Proof.Hop2Ref.lean ====
/-
  The reference's second layer read at an entry (r, j) of its 1024 × 41 result: the dense stage over the 256 hidden
  features (the bias between the two products), then `log_softmax` along the row — the host's max-reduction is the
  fold of `max` from −∞ over the row (taking `max` with −∞ once more changes nothing), its add-reduction the sum of
  the exponentials from zero.
-/
import proofs.«126439_j69801808494648_1_alg».proof.Proof.RefRead
import proofs.«126439_j69801808494648_1_alg».proof.Proof.Sage

noncomputable section

namespace Cert.ReferenceIdeal.Stage

open Idealize.ShloMosaic Idealize.ShloMosaic.ValueIdx Cert.ReferenceIdeal Cert.ReferenceIdeal.ReadP

/-- The left operand index of the first product at entry (r, j) and hidden feature k is (r, k). -/
private theorem lidx47_ix (r : Fin 1024) (j : Fin 41) (k : Fin 256) : lidx_main_v47 (ix2 r j) k = ix2 r k :=
  funext fun a => Fin.ext (by match a with | ⟨0, _⟩ => rfl | ⟨1, _⟩ => rfl)
/-- The right operand index of the first product at entry (r, j) and hidden feature k is (k, j). -/
private theorem ridx47_ix (r : Fin 1024) (j : Fin 41) (k : Fin 256) : ridx_main_v47 (ix2 r j) k = ix2 k j :=
  funext fun a => Fin.ext (by match a with | ⟨0, _⟩ => rfl | ⟨1, _⟩ => rfl)
/-- The left operand index of the second product at entry (r, j) and hidden feature k is (r, k). -/
private theorem lidx51_ix (r : Fin 1024) (j : Fin 41) (k : Fin 256) : lidx_main_v51 (ix2 r j) k = ix2 r k :=
  funext fun a => Fin.ext (by match a with | ⟨0, _⟩ => rfl | ⟨1, _⟩ => rfl)
/-- The right operand index of the second product at entry (r, j) and hidden feature k is (k, j). -/
private theorem ridx51_ix (r : Fin 1024) (j : Fin 41) (k : Fin 256) : ridx_main_v51 (ix2 r j) k = ix2 k j :=
  funext fun a => Fin.ext (by match a with | ⟨0, _⟩ => rfl | ⟨1, _⟩ => rfl)
/-- The bias broadcast along the rows, read at entry (r, j), is the bias at j. -/
private theorem bias2_ix (r : Fin 1024) (j : Fin 41) : idx_main_v48 (idx_main_v49 (ix2 r j)) = ix1 j :=
  funext fun a => Fin.ext (by match a with | ⟨0, _⟩ => rfl)
/-- A per-row value broadcast along the row, read at entry (r, j), is the value of row r. -/
private theorem row_ix (r : Fin 1024) (j : Fin 41) : idx_main_call1_v3 (idx_main_call1_v4 (ix2 r j)) = ix1 r :=
  funext fun a => Fin.ext (by match a with | ⟨0, _⟩ => rfl)
/-- Term k of the row sum whose logarithm is broadcast to entry (r, j) is read at (r, k). -/
private theorem sum_ix (r : Fin 1024) (j : Fin 41) (k : Fin 41) :
    idx_main_call1_v7 (idx_main_call1_v8 (idx_main_call1_v10 (ix2 r j))) k = ix2 r k :=
  funext fun a => Fin.ext (by match a with | ⟨0, _⟩ => rfl | ⟨1, _⟩ => rfl)

/-- Entry (r, j) of the second dense stage: the two sums over the 256 hidden features, the bias added to the first. -/
private theorem dense2_apply (x0 : (⟨S120000x602, .f32⟩ : BufTy).Contents (Elt Ideal)) (x1 x2 : (⟨S250000, .i32⟩ : BufTy).Contents (Elt Ideal))
    (x3 x4 : (⟨S25600, .i32⟩ : BufTy).Contents (Elt Ideal))
    (x5 x6 : (⟨S602x256, .f32⟩ : BufTy).Contents (Elt Ideal)) (x7 : (⟨S256, .f32⟩ : BufTy).Contents (Elt Ideal))
    (x8 x9 : (⟨S256x41, .f32⟩ : BufTy).Contents (Elt Ideal)) (x10 : (⟨S41, .f32⟩ : BufTy).Contents (Elt Ideal))
    (r : Fin 1024) (j : Fin 41) :
    val_main_v52 (F := Ideal) x0 x1 x2 x3 x4 x5 x6 x7 x8 x9 x10 (ix2 r j)
      = Cert.Sage.denseBiasMid (val_main_v46 (F := Ideal) x0 x1 x2 x3 x4 x5 x6 x7) (val_main_v27 (F := Ideal) x0 x1 x2 x5 x6 x7) x8 x9 x10 r j := by
  rw [val_main_v52_apply, val_main_v50_apply, val_main_v47_apply, val_main_v51_apply, val_main_v49_apply, val_main_v48_apply]
  simp only [lidx47_ix, ridx47_ix, lidx51_ix, ridx51_ix, bias2_ix, Ideal.addf_def, Cert.Sage.denseBiasMid]

/-- The host's max-reduction along the row, read at row r: the fold of `max` from −∞ over the 41 entries of row r of the
    dense stage. The reduction's body is commutative and associative, so it is the fold over the dropped axis's
    coordinates, and the index with coordinate k inserted on that axis is (r, k). -/
private theorem rowmax_apply (x0 : (⟨S120000x602, .f32⟩ : BufTy).Contents (Elt Ideal)) (x1 x2 : (⟨S250000, .i32⟩ : BufTy).Contents (Elt Ideal))
    (x3 x4 : (⟨S25600, .i32⟩ : BufTy).Contents (Elt Ideal))
    (x5 x6 : (⟨S602x256, .f32⟩ : BufTy).Contents (Elt Ideal)) (x7 : (⟨S256, .f32⟩ : BufTy).Contents (Elt Ideal))
    (x8 x9 : (⟨S256x41, .f32⟩ : BufTy).Contents (Elt Ideal)) (x10 : (⟨S41, .f32⟩ : BufTy).Contents (Elt Ideal))
    (r : Fin 1024) :
    val_main_call1_v0 (F := Ideal) x0 x1 x2 x3 x4 x5 x6 x7 x8 x9 x10 (ix1 r)
      = Cert.Sage.rowMax (fun j' : Fin 41 => val_main_v52 (F := Ideal) x0 x1 x2 x3 x4 x5 x6 x7 x8 x9 x10 (ix2 r j')) := by
  unfold val_main_call1_v0
  refine (Host.reduce_eq_fold_single FloatOps.maximumf _ _ Gen.reducesTo_S1024x41_S1024_d1 (by decide) Gen.h_S_ (ix1 r)).trans ?_
  unfold Cert.Sage.rowMax
  exact congrArg (fun f => Finset.fold max (Ideal.ofBits .f32 0xFF800000#32) f (Finset.univ : Finset (Fin 41)))
    (funext fun k => congrArg (val_main_v52 (F := Ideal) x0 x1 x2 x3 x4 x5 x6 x7 x8 x9 x10)
      (funext fun a => Fin.ext (by match a with | ⟨0, _⟩ => rfl | ⟨1, _⟩ => rfl)))

/-- Entry (r, j) of the result: the log-softmax of row r of the second dense stage. The operands are the reference's own
    stages: the second mean aggregation `val_main_v46` and the leading 1024 rows of the hidden layer, `val_main_v27`. -/
theorem hop2_ref_apply (x0 : (⟨S120000x602, .f32⟩ : BufTy).Contents (Elt Ideal)) (x1 x2 : (⟨S250000, .i32⟩ : BufTy).Contents (Elt Ideal))
    (x3 x4 : (⟨S25600, .i32⟩ : BufTy).Contents (Elt Ideal))
    (x5 x6 : (⟨S602x256, .f32⟩ : BufTy).Contents (Elt Ideal)) (x7 : (⟨S256, .f32⟩ : BufTy).Contents (Elt Ideal))
    (x8 x9 : (⟨S256x41, .f32⟩ : BufTy).Contents (Elt Ideal)) (x10 : (⟨S41, .f32⟩ : BufTy).Contents (Elt Ideal))
    (r : Fin 1024) (j : Fin 41) :
    val_main_v53 (F := Ideal) x0 x1 x2 x3 x4 x5 x6 x7 x8 x9 x10 (ix2 r j)
      = Cert.Sage.logSoftmaxRow (fun j' : Fin 41 =>
          Cert.Sage.denseBiasMid (val_main_v46 (F := Ideal) x0 x1 x2 x3 x4 x5 x6 x7) (val_main_v27 (F := Ideal) x0 x1 x2 x5 x6 x7) x8 x9 x10 r j') j := by
  simp only [val_main_v53_apply, val_main_call1_v5_apply, val_main_call1_v10_apply, val_main_call1_v9_apply, val_main_call1_v8_apply,
    val_main_call1_v7_apply, val_main_call1_v6_apply, val_main_call1_v4_apply, val_main_call1_v3_apply, val_main_call1_v2_apply,
    val_main_call1_v1_apply, val_main_call1_cst_0_apply, val_main_call1_cst_1_apply]
  simp only [sum_ix, row_ix, rowmax_apply, dense2_apply, Ideal.subf_def, Ideal.maximumf_def, Ideal.ofBits_def,
    Ideal.hostUnary_exp_def, Ideal.hostUnary_log_def, Ideal.ofBits_zero_f32, zero_add, Cert.Sage.max_init_rowMax,
    Cert.Sage.logSoftmaxRow]

end Cert.ReferenceIdeal.Stage

end
-- ==== Proof.KernelValue.lean ====
/-
  What the kernel program leaves in its result buffer, as a function of the arguments.

  The program is four stretches. Host operations first gather the source rows, scatter-add them by target and divide
  by the neighbour counts (the mean aggregation), and slice off the targets' own rows; the first pallas_call then
  writes the hidden layer; a second stretch of the same host operations aggregates the hidden layer; the second
  pallas_call writes the result. The reference performs the SAME host operations on the same values, so each stretch's
  output is named by the reference's own stage of the arguments, never opened: the aggregation stages by unfolding
  the two texts against each other, the two calls' arrays by the blocks-to-array lemmas over the dense stage read at an
  entry on both sides, where the only difference is the place of the bias in a sum.
-/
import proofs.«126439_j69801808494648_1_alg».proof.Proof.KernelRun
import proofs.«126439_j69801808494648_1_alg».proof.Proof.Hop1Blocks
import proofs.«126439_j69801808494648_1_alg».proof.Proof.Hop2Blocks
import proofs.«126439_j69801808494648_1_alg».proof.Proof.Hop1Ref
import proofs.«126439_j69801808494648_1_alg».proof.Proof.Hop2Ref
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen
open Cert.ReferenceIdeal.ReadP Cert.ReferenceIdeal.Stage

variable (m : (ℓ : Loc nD τ sig) → Buf (Elt Ideal) ℓ) (ρ : Dev nD → PrngReg) (c : Dev nD)

/-! ## Where the first call is entered -/

set_option maxHeartbeats 4000000 in
/-- The aggregated features are the reference's mean-aggregation stage of the arguments: the same gather,
    scatter-adds, clamp of the counts and quotient, operation for operation. -/
theorem entry1_agg : V1 m ρ c main_v18 = val_main_v19 (F := Ideal) (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

set_option maxHeartbeats 4000000 in
/-- The targets' own features are the leading 10000 rows of `x`. -/
theorem entry1_self : V1 m ρ c main_v19 = val_main_v0 (F := Ideal) (m ((c : Thread nD τ).loc main_arg0)) := by
  show StableHlo.after hostOps0 (W0 m ρ c) (Proc.devRef .tc main_v19) = _
  after_results_simp
  rfl

set_option maxHeartbeats 4000000 in
/-- No host operation writes an argument: the first stretch leaves each where it was. -/
theorem entry1_arg (b : Ref sig .tc) (hb : b = main_arg3 ∨ b = main_arg4 ∨ b = main_arg5 ∨ b = main_arg6 ∨ b = main_arg7 ∨ b = main_arg8 ∨ b = main_arg9 ∨ b = main_arg10) :
    W1 m ρ c (Proc.devRef .tc b) = m ((c : Thread nD τ).loc b) := by
  rcases hb with rfl | rfl | rfl | rfl | rfl | rfl | rfl | rfl <;>
  · show StableHlo.after hostOps0 (W0 m ρ c) _ = _
    after_results_simp

/-! ## The hidden layer -/

/-- After the first call its result array is the reference's hidden layer of the arguments: at every (r, j) both are
    the rectified dense stage of row r, the bias last on one side and between the products on the other. -/
theorem hidden : W2 m ρ c (Proc.devRef .tc main_v20)
    = val_main_v26 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) :=
  (W2_arr m ρ c 5).trans (Cert.KernelIdeal.Hop1.final (V1 m ρ) c _ fun r j => by
    rw [hop1_ref_apply, ← Cert.Sage.denseBiasLast_eq_mid, entry1_agg, entry1_self]
    rw [show V1 m ρ c main_arg5 = (m ((c : Thread nD τ).loc main_arg5)) from entry1_arg m ρ c main_arg5 (by simp),
      show V1 m ρ c main_arg6 = (m ((c : Thread nD τ).loc main_arg6)) from entry1_arg m ρ c main_arg6 (by simp),
      show V1 m ρ c main_arg7 = (m ((c : Thread nD τ).loc main_arg7)) from entry1_arg m ρ c main_arg7 (by simp)])

/-- The first call writes no argument either. -/
theorem mid_arg (b : Ref sig .tc) (hb : b = main_arg3 ∨ b = main_arg4 ∨ b = main_arg8 ∨ b = main_arg9 ∨ b = main_arg10) :
    W2 m ρ c (Proc.devRef .tc b) = m ((c : Thread nD τ).loc b) := by
  rcases hb with rfl | rfl | rfl | rfl | rfl
  · exact (W2_of_ne m ρ c main_arg3 (by decide)).trans (entry1_arg m ρ c main_arg3 (by simp))
  · exact (W2_of_ne m ρ c main_arg4 (by decide)).trans (entry1_arg m ρ c main_arg4 (by simp))
  · exact (W2_of_ne m ρ c main_arg8 (by decide)).trans (entry1_arg m ρ c main_arg8 (by simp))
  · exact (W2_of_ne m ρ c main_arg9 (by decide)).trans (entry1_arg m ρ c main_arg9 (by simp))
  · exact (W2_of_ne m ρ c main_arg10 (by decide)).trans (entry1_arg m ρ c main_arg10 (by simp))

/-! ## Where the second call is entered -/

set_option maxHeartbeats 4000000 in
/-- The aggregated hidden rows are the reference's second mean-aggregation stage: the same host operations applied to
    the same hidden layer. -/
theorem entry2_agg : V3 m ρ c main_v39
    = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m ρ c) (Proc.devRef .tc main_v39) = _
  after_results_simp
  rw [hidden, mid_arg m ρ c main_arg3 (by simp), mid_arg m ρ c main_arg4 (by simp)]
  rfl

set_option maxHeartbeats 4000000 in
/-- The targets' own hidden rows are the leading 1024 rows of the hidden layer. -/
theorem entry2_self : V3 m ρ c main_v40
    = val_main_v27 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  show StableHlo.after hostOps1 (W2 m ρ c) (Proc.devRef .tc main_v40) = _
  after_results_simp
  rw [hidden]
  rfl

set_option maxHeartbeats 4000000 in
/-- The second layer's weights and bias reach the second call as launched: the second stretch writes none of them. -/
theorem entry2_arg (b : Ref sig .tc) (hb : b = main_arg8 ∨ b = main_arg9 ∨ b = main_arg10) :
    W3 m ρ c (Proc.devRef .tc b) = m ((c : Thread nD τ).loc b) := by
  rcases hb with rfl | rfl | rfl
  · show StableHlo.after hostOps1 (W2 m ρ c) _ = _
    after_results_simp
    exact mid_arg m ρ c main_arg8 (by simp)
  · show StableHlo.after hostOps1 (W2 m ρ c) _ = _
    after_results_simp
    exact mid_arg m ρ c main_arg9 (by simp)
  · show StableHlo.after hostOps1 (W2 m ρ c) _ = _
    after_results_simp
    exact mid_arg m ρ c main_arg10 (by simp)

/-! ## The result -/

/-- After the second call the result array is the reference's result stage of the arguments: at every (r, j) both are
    entry j of the log-softmax of row r of the second dense stage. -/
theorem result : W4 m ρ c (Proc.devRef .tc main_v41)
    = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_arr m ρ c 5).trans (Cert.KernelIdeal.Hop2.final (V3 m ρ) c _ fun r j => by
    rw [hop2_ref_apply, entry2_agg, entry2_self,
      show V3 m ρ c main_arg8 = (m ((c : Thread nD τ).loc main_arg8)) from entry2_arg m ρ c main_arg8 (by simp),
      show V3 m ρ c main_arg9 = (m ((c : Thread nD τ).loc main_arg9)) from entry2_arg m ρ c main_arg9 (by simp),
      show V3 m ρ c main_arg10 = (m ((c : Thread nD τ).loc main_arg10)) from entry2_arg m ρ c main_arg10 (by simp)]
    simp only [Cert.Sage.denseBiasLast_eq_mid])

end Cert.KernelIdeal.Result

end
-- ==== Proof.lean ====
/-
  Two layers of GraphSAGE — mean aggregation over sampled neighbours, a dense stage with its bias, a rectifier after
  the first layer and a row-wise log-softmax after the second — computed by a program with two pallas_calls and by
  its jnp reference: over the extended reals the two results are one function of the arguments.

  Both programs aggregate with the same host operations (gather, scatter-add, the clamp of the counts, the quotient),
  so those stages are carried as the reference's own named stages and never opened. The dense stages differ in one
  thing: the kernel adds the bias after both matrix products, the reference between them; sums on the extended reals
  are commutative and associative, at the infinities too, so no finiteness of the inputs is used (Proof/Sage.lean).
  A product into a zero accumulator is the host's `dot_general`, the narrowing of the operands to bf16 is the identity,
  a lane maximum from −∞ is the host's max-reduction, a lane sum the host's add-reduction from zero (Proof/Hop1Pay.lean,
  Proof/Hop2Pay.lean for the kernel bodies; Proof/Hop1Ref.lean, Proof/Hop2Ref.lean for the reference), and the tiles
  the first call writes back, and the one block of the second, cover their arrays (Proof/Hop1Blocks.lean,
  Proof/Hop2Blocks.lean). Proof/KernelValue.lean threads these through the program's four stretches.

  The three frames: the two kernel programs' are the generated frame certificates; the reference's is its run with the
  result dropped. The idealization's ledger is empty.
-/
import proofs.«126439_j69801808494648_1_alg».proof.Defs
import proofs.«126439_j69801808494648_1_alg».proof.Proof.Gen.Kernel
import proofs.«126439_j69801808494648_1_alg».proof.Proof.Gen.Kernel.Skeleton
import proofs.«126439_j69801808494648_1_alg».proof.Proof.Gen.Kernel.Launch
import proofs.«126439_j69801808494648_1_alg».proof.Proof.Gen.Kernel.Points
import proofs.«126439_j69801808494648_1_alg».proof.Proof.Gen.Kernel.Frame
import proofs.«126439_j69801808494648_1_alg».proof.Proof.Gen.KernelIdeal
import proofs.«126439_j69801808494648_1_alg».proof.Proof.Gen.KernelIdeal.Skeleton
import proofs.«126439_j69801808494648_1_alg».proof.Proof.Gen.KernelIdeal.Launch
import proofs.«126439_j69801808494648_1_alg».proof.Proof.Gen.KernelIdeal.Points
import proofs.«126439_j69801808494648_1_alg».proof.Proof.Gen.KernelIdeal.Frame
import proofs.«126439_j69801808494648_1_alg».proof.Proof.Gen.ReferenceIdeal
import proofs.«126439_j69801808494648_1_alg».proof.Proof.Gen.Pre_finite_inputs
import proofs.«126439_j69801808494648_1_alg».proof.Proof.RefRun
import proofs.«126439_j69801808494648_1_alg».proof.Proof.RefRead
import proofs.«126439_j69801808494648_1_alg».proof.Proof.KernelRun
import proofs.«126439_j69801808494648_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end with the reference's result stage of the (agreeing) arguments in their result buffers. -/
theorem algebraic : Cert.algebraic_KernelIdeal_ReferenceIdeal := by
  intro m ρ m' ρ' _ hagree
  refine ⟨fun c => Cert.ReferenceIdeal.ReadP.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Result.result m ρ c), (h c).2⟩)
      (Cert.KernelIdeal.GenP.run_result m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6, e7, e8, e9, e10⟩ := hagree c
    rw [(h c).1, Cert.ReferenceIdeal.ReadP.val_main_v53_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
